-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x600000 : Shape := ⟨2, ![2, 600000]⟩
abbrev S600000x3 : Shape := ⟨2, ![600000, 3]⟩
abbrev S576x128 : Shape := ⟨2, ![576, 128]⟩
abbrev S48x1 : Shape := ⟨2, ![48, 1]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S9 : Shape := ⟨1, ![9]⟩
abbrev S1x9 : Shape := ⟨2, ![1, 9]⟩

class Facts : Prop where
  bcast_S_S576x128 : S_.BroadcastsInDim S576x128 (![] : Fin 0 → Fin S576x128.rank)
  reducesTo_S576x128_S_d0_1 : S576x128.ReducesTo [0, 1] S_
  h_S_ : 0 < S_.numel
  bcast_S_S48x1 : S_.BroadcastsInDim S48x1 (![] : Fin 0 → Fin S48x1.rank)
  reducesTo_S48x1_S_d0_1 : S48x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S9 : S_.BroadcastsInDim S9 (![] : Fin 0 → Fin S9.rank)
  bcast_S9_S1x9_1 : S9.BroadcastsInDim S1x9 (![1] : Fin 1 → Fin S1x9.rank)
  bcast_S1x9_S100000x9_0_1 : S1x9.BroadcastsInDim S100000x9 (![0, 1] : Fin 2 → Fin S100000x9.rank)
  reducesTo_S100000x9_S_d0_1 : S100000x9.ReducesTo [0, 1] S_

variable [Facts]

def fn_part3 {F : FTy → Type} [FloatOps F] (main_arg0 : IVec S100000x9 32) (main_v46 : IVec S_ 1) (main_v51 : IVec S9 32) : IVec S_ 1 :=
  let main_v52 : IVec S1x9 32 := broadcastInDim S1x9 ![1] bcast_S9_S1x9_1 main_v51
  let main_v53 : IVec S100000x9 32 := broadcastInDim S100000x9 ![0, 1] bcast_S1x9_S100000x9_0_1 main_v52
  let main_v54 : IVec S100000x9 1 := cmpi .slt main_arg0 main_v53
  let main_c_18 : IVec S_ 1 := constantI S_ 1 1#1
  let main_v55 : IVec S_ 1 := (fun x v => Host.reduce IntOp.andi x v reducesTo_S100000x9_S_d0_1 h_S_) main_v54 main_c_18
  let main_v56 : IVec S_ 1 := andi main_v46 main_v55
  main_v56

def fn_part2 {F : FTy → Type} [FloatOps F] (main_arg0 : IVec S100000x9 32) (main_arg10 : FVec F S1 .f32) (main_v33 : IVec S_ 1) : IVec S_ 1 :=
  let main_v34 : FVec F S1 .f32 := Host.absf main_arg10
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : IVec S9 32 := iotaInDim S9 32 0
  let main_c_14 : IVec S_ 32 := constantI S_ 32 4294967232#32
  let main_v40 : IVec S9 32 := broadcastInDim S9 ![] bcast_S_S9 main_c_14
  let main_v41 : IVec S9 32 := muli main_v39 main_v40
  let main_v42 : IVec S1x9 32 := broadcastInDim S1x9 ![1] bcast_S9_S1x9_1 main_v41
  let main_v43 : IVec S100000x9 32 := broadcastInDim S100000x9 ![0, 1] bcast_S1x9_S100000x9_0_1 main_v42
  let main_v44 : IVec S100000x9 1 := cmpi .sge main_arg0 main_v43
  let main_c_15 : IVec S_ 1 := constantI S_ 1 1#1
  let main_v45 : IVec S_ 1 := (fun x v => Host.reduce IntOp.andi x v reducesTo_S100000x9_S_d0_1 h_S_) main_v44 main_c_15
  let main_v46 : IVec S_ 1 := andi main_v38 main_v45
  let main_v47 : IVec S9 32 := iotaInDim S9 32 0
  let main_c_16 : IVec S_ 32 := constantI S_ 32 4294967232#32
  let main_v48 : IVec S9 32 := broadcastInDim S9 ![] bcast_S_S9 main_c_16
  let main_v49 : IVec S9 32 := muli main_v47 main_v48
  let main_c_17 : IVec S_ 32 := constantI S_ 32 576#32
  let main_v50 : IVec S9 32 := broadcastInDim S9 ![] bcast_S_S9 main_c_17
  let main_v51 : IVec S9 32 := addi main_v49 main_v50
  fn_part3 (F := F) main_arg0 main_v46 main_v51

def fn_part1 {F : FTy → Type} [FloatOps F] (main_arg0 : IVec S100000x9 32) (main_arg7 : FVec F S128x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg9
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg0 main_arg10 main_v33

def fn {F : FTy → Type} [FloatOps F] (main_arg0 : IVec S100000x9 32) (main_arg1 : IVec S2x600000 32) (main_arg2 : IVec S600000x3 32) (main_arg3 : FVec F S576x128 .f32) (main_arg4 : FVec F S48x1 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S576x128 .f32 := Host.absf main_arg3
  let main_cst : FVec F S_ .f32 := constant S_ .f32 0x7F800000#32
  let main_v1 : FVec F S576x128 .f32 := broadcastInDim S576x128 ![] bcast_S_S576x128 main_cst
  let main_v2 : IVec S576x128 1 := cmpf .olt main_v0 main_v1
  let main_c : IVec S_ 1 := constantI S_ 1 1#1
  let main_v3 : IVec S_ 1 := (fun x v => Host.reduce IntOp.andi x v reducesTo_S576x128_S_d0_1 h_S_) main_v2 main_c
  let main_v4 : FVec F S48x1 .f32 := Host.absf main_arg4
  let main_cst_0 : FVec F S_ .f32 := constant S_ .f32 0x7F800000#32
  let main_v5 : FVec F S48x1 .f32 := broadcastInDim S48x1 ![] bcast_S_S48x1 main_cst_0
  let main_v6 : IVec S48x1 1 := cmpf .olt main_v4 main_v5
  let main_c_1 : IVec S_ 1 := constantI S_ 1 1#1
  let main_v7 : IVec S_ 1 := (fun x v => Host.reduce IntOp.andi x v reducesTo_S48x1_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg7 main_arg8 main_arg9 main_arg10 main_v13 main_v16
-- ==== Kernel.lean ====
abbrev S100000x9 : Shape := ⟨2, ![100000, 9]⟩
abbrev S2x600000 : Shape := ⟨2, ![2, 600000]⟩
abbrev S600000x3 : Shape := ⟨2, ![600000, 3]⟩
abbrev S576x128 : Shape := ⟨2, ![576, 128]⟩
abbrev S48x1 : Shape := ⟨2, ![48, 1]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S100000x128 : Shape := ⟨2, ![100000, 128]⟩
abbrev S2000x9 : Shape := ⟨2, ![2000, 9]⟩
abbrev S2000x128 : Shape := ⟨2, ![2000, 128]⟩
abbrev S1x576 : Shape := ⟨2, ![1, 576]⟩
abbrev S2000x576 : Shape := ⟨2, ![2000, 576]⟩
abbrev S2000x1 : Shape := ⟨2, ![2000, 1]⟩
abbrev S3 : Shape := ⟨1, ![3]⟩
abbrev S_ : Shape := ⟨0, ![]⟩
abbrev S1x3 : Shape := ⟨2, ![1, 3]⟩
abbrev S600000x3x1 : Shape := ⟨3, ![600000, 3, 1]⟩
abbrev S600000x1 : Shape := ⟨2, ![600000, 1]⟩
abbrev S100000 : Shape := ⟨1, ![100000]⟩
abbrev S700000 : Shape := ⟨1, ![700000]⟩
abbrev S700000x1 : Shape := ⟨2, ![700000, 1]⟩
abbrev S700000x128 : Shape := ⟨2, ![700000, 128]⟩
abbrev S1x128 : Shape := ⟨2, ![1, 128]⟩
abbrev S1x1 : Shape := ⟨2, ![1, 1]⟩
abbrev S100000x1 : Shape := ⟨2, ![100000, 1]⟩

abbrev nBuf : Space → Nat
  | .hbm => 121
  | .vmem => 18
  | .smem => 0
  | _ => 0

abbrev bufTy : (tb : Table) → Fin (tcTables nBuf tb) → BufTy
  | .hbm, ⟨0, _⟩ => ⟨S100000x9, .i32⟩
  | .hbm, ⟨1, _⟩ => ⟨S2x600000, .i32⟩
  | .hbm, ⟨2, _⟩ => ⟨S600000x3, .i32⟩
  | .hbm, ⟨3, _⟩ => ⟨S576x128, .f32⟩
  | .hbm, ⟨4, _⟩ => ⟨S48x1, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S576x128, .f32⟩
  | .hbm, ⟨16, _⟩ => ⟨S576x128, .bf16⟩
  | .hbm, ⟨17, _⟩ => ⟨S100000x128, .bf16⟩
  | .hbm, ⟨18, _⟩ => ⟨S3, .i32⟩
  | .hbm, ⟨19, _⟩ => ⟨S_, .i32⟩
  | .hbm, ⟨20, _⟩ => ⟨S3, .i32⟩
  | .hbm, ⟨21, _⟩ => ⟨S3, .i32⟩
  | .hbm, ⟨22, _⟩ => ⟨S1x3, .i32⟩
  | .hbm, ⟨23, _⟩ => ⟨S600000x3, .i32⟩
  | .hbm, ⟨24, _⟩ => ⟨S600000x3, .i32⟩
  | .hbm, ⟨25, _⟩ => ⟨S_, .i32⟩
  | .hbm, ⟨26, _⟩ => ⟨S600000x3, .i32⟩
  | .hbm, ⟨27, _⟩ => ⟨S600000x3, .i1⟩
  | .hbm, ⟨28, _⟩ => ⟨S_, .i32⟩
  | .hbm, ⟨29, _⟩ => ⟨S600000x3, .i32⟩
  | .hbm, ⟨30, _⟩ => ⟨S600000x3, .i32⟩
  | .hbm, ⟨31, _⟩ => ⟨S600000x3, .i32⟩
  | .hbm, ⟨32, _⟩ => ⟨S600000x3x1, .i32⟩
  | .hbm, ⟨33, _⟩ => ⟨S600000x3x1, .f32⟩
  | .hbm, ⟨34, _⟩ => ⟨S_, .f32⟩
  | .hbm, ⟨35, _⟩ => ⟨S600000x1, .f32⟩
  | .hbm, ⟨36, _⟩ => ⟨S600000, .f32⟩
  | .hbm, ⟨37, _⟩ => ⟨S100000, .i32⟩
  | .hbm, ⟨38, _⟩ => ⟨S700000, .i32⟩
  | .hbm, ⟨39, _⟩ => ⟨S700000, .i32⟩
  | .hbm, ⟨40, _⟩ => ⟨S_, .f32⟩
  | .hbm, ⟨41, _⟩ => ⟨S100000, .f32⟩
  | .hbm, ⟨42, _⟩ => ⟨S700000, .f32⟩
  | .hbm, ⟨43, _⟩ => ⟨S_, .f32⟩
  | .hbm, ⟨44, _⟩ => ⟨S100000, .f32⟩
  | .hbm, ⟨45, _⟩ => ⟨S700000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .i1⟩
  | .hbm, ⟨50, _⟩ => ⟨S_, .f32⟩
  | .hbm, ⟨51, _⟩ => ⟨S100000, .f32⟩
  | .hbm, ⟨52, _⟩ => ⟨S100000, .i1⟩
  | .hbm, ⟨53, _⟩ => ⟨S_, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S_, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S_, .i32⟩
  | .hbm, ⟨63, _⟩ => ⟨S700000, .i32⟩
  | .hbm, ⟨64, _⟩ => ⟨S700000, .i1⟩
  | .hbm, ⟨65, _⟩ => ⟨S_, .i32⟩
  | .hbm, ⟨66, _⟩ => ⟨S700000, .i32⟩
  | .hbm, ⟨67, _⟩ => ⟨S700000, .i32⟩
  | .hbm, ⟨68, _⟩ => ⟨S700000, .i32⟩
  | .hbm, ⟨69, _⟩ => ⟨S700000x1, .i32⟩
  | .hbm, ⟨70, _⟩ => ⟨S700000, .f32⟩
  | .hbm, ⟨71, _⟩ => ⟨S700000, .f32⟩
  | .hbm, ⟨72, _⟩ => ⟨S_, .i32⟩
  | .hbm, ⟨73, _⟩ => ⟨S700000, .i32⟩
  | .hbm, ⟨74, _⟩ => ⟨S700000, .i1⟩
  | .hbm, ⟨75, _⟩ => ⟨S_, .i32⟩
  | .hbm, ⟨76, _⟩ => ⟨S700000, .i32⟩
  | .hbm, ⟨77, _⟩ => ⟨S700000, .i32⟩
  | .hbm, ⟨78, _⟩ => ⟨S700000, .i32⟩
  | .hbm, ⟨79, _⟩ => ⟨S700000x1, .i32⟩
  | .hbm, ⟨80, _⟩ => ⟨S700000, .f32⟩
  | .hbm, ⟨81, _⟩ => ⟨S700000, .f32⟩
  | .hbm, ⟨82, _⟩ => ⟨S_, .i32⟩
  | .hbm, ⟨83, _⟩ => ⟨S700000, .i32⟩
  | .hbm, ⟨84, _⟩ => ⟨S700000, .i1⟩
  | .hbm, ⟨85, _⟩ => ⟨S_, .i32⟩
  | .hbm, ⟨86, _⟩ => ⟨S700000, .i32⟩
  | .hbm, ⟨87, _⟩ => ⟨S700000, .i32⟩
  | .hbm, ⟨88, _⟩ => ⟨S700000, .i32⟩
  | .hbm, ⟨89, _⟩ => ⟨S700000x1, .i32⟩
  | .hbm, ⟨90, _⟩ => ⟨S700000x128, .bf16⟩
  | .hbm, ⟨91, _⟩ => ⟨S700000x128, .f32⟩
  | .hbm, ⟨92, _⟩ => ⟨S700000x1, .f32⟩
  | .hbm, ⟨93, _⟩ => ⟨S700000x128, .f32⟩
  | .hbm, ⟨94, _⟩ => ⟨S700000x128, .f32⟩
  | .hbm, ⟨95, _⟩ => ⟨S_, .f32⟩
  | .hbm, ⟨96, _⟩ => ⟨S100000x128, .f32⟩
  | .hbm, ⟨97, _⟩ => ⟨S700000x1, .i32⟩
  | .hbm, ⟨98, _⟩ => ⟨S100000x128, .f32⟩
  | .hbm, ⟨99, _⟩ => ⟨S1x128, .f32⟩
  | .hbm, ⟨100, _⟩ => ⟨S100000x128, .bf16⟩
  | .hbm, ⟨101, _⟩ => ⟨S_, .i32⟩
  | .hbm, ⟨102, _⟩ => ⟨S700000, .i32⟩
  | .hbm, ⟨103, _⟩ => ⟨S700000, .i1⟩
  | .hbm, ⟨104, _⟩ => ⟨S_, .i32⟩
  | .hbm, ⟨105, _⟩ => ⟨S700000, .i32⟩
  | .hbm, ⟨106, _⟩ => ⟨S700000, .i32⟩
  | .hbm, ⟨107, _⟩ => ⟨S700000, .i32⟩
  | .hbm, ⟨108, _⟩ => ⟨S700000x1, .i32⟩
  | .hbm, ⟨109, _⟩ => ⟨S700000x128, .bf16⟩
  | .hbm, ⟨110, _⟩ => ⟨S700000x128, .f32⟩
  | .hbm, ⟨111, _⟩ => ⟨S700000x1, .f32⟩
  | .hbm, ⟨112, _⟩ => ⟨S700000x128, .f32⟩
  | .hbm, ⟨113, _⟩ => ⟨S700000x128, .f32⟩
  | .hbm, ⟨114, _⟩ => ⟨S_, .f32⟩
  | .hbm, ⟨115, _⟩ => ⟨S100000x128, .f32⟩
  | .hbm, ⟨116, _⟩ => ⟨S700000x1, .i32⟩
  | .hbm, ⟨117, _⟩ => ⟨S100000x128, .f32⟩
  | .hbm, ⟨118, _⟩ => ⟨S1x128, .f32⟩
  | .hbm, ⟨119, _⟩ => ⟨S1x1, .f32⟩
  | .hbm, ⟨120, _⟩ => ⟨S100000x1, .f32⟩
  | .local _ .vmem, ⟨0, _⟩ => ⟨S2000x9, .i32⟩
  | .local _ .vmem, ⟨1, _⟩ => ⟨S2000x9, .i32⟩
  | .local _ .vmem, ⟨2, _⟩ => ⟨S576x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | _, _ => ⟨S100000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_call1_v0 : Ref sig .tc := ⟨.hbm, 59, rfl⟩
abbrev main_call1_v1 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_15 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x9 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  inb_S2000x9_S2000x9_0_0 : ∀ a, (![0, 0] : Fin 2 → Nat) a + S2000x9.size a ≤ S2000x9.size a
  h_S2000x9 : 0 < S2000x9.numel
  iota_S1x576_d1_w32 : S1x576.Iotas .tc 32 [1]
  slices_S2000x9_o0_0_S2000x1 : S2000x9.Slices ![0, 0] S2000x1
  broadcasts_S2000x1_S2000x576 : S2000x1.Broadcasts S2000x576
  broadcasts_S1x576_S2000x576 : S1x576.Broadcasts S2000x576
  natLt_1_32 : 1 < 32
  slices_S2000x9_o0_1_S2000x1 : S2000x9.Slices ![0, 1] S2000x1
  slices_S2000x9_o0_2_S2000x1 : S2000x9.Slices ![0, 2] S2000x1
  slices_S2000x9_o0_3_S2000x1 : S2000x9.Slices ![0, 3] S2000x1
  slices_S2000x9_o0_4_S2000x1 : S2000x9.Slices ![0, 4] S2000x1
  slices_S2000x9_o0_5_S2000x1 : S2000x9.Slices ![0, 5] S2000x1
  slices_S2000x9_o0_6_S2000x1 : S2000x9.Slices ![0, 6] S2000x1
  slices_S2000x9_o0_7_S2000x1 : S2000x9.Slices ![0, 7] S2000x1
  slices_S2000x9_o0_8_S2000x1 : S2000x9.Slices ![0, 8] S2000x1
  inb_S576x128_S576x128_0_0 : ∀ a, (![0, 0] : Fin 2 → Nat) a + S576x128.size a ≤ S576x128.size a
  h_S576x128 : 0 < S576x128.numel
  shapeCasts_S576x128_S576x128 : S576x128.ShapeCasts S576x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S3 : S_.BroadcastsInDim S3 (![] : Fin 0 → Fin S3.rank)
  bcast_S3_S1x3_1 : S3.BroadcastsInDim S1x3 (![1] : Fin 1 → Fin S1x3.rank)
  bcast_S1x3_S600000x3_0_1 : S1x3.BroadcastsInDim S600000x3 (![0, 1] : Fin 2 → Fin S600000x3.rank)
  bcast_S_S600000x3 : S_.BroadcastsInDim S600000x3 (![] : Fin 0 → Fin S600000x3.rank)
  bcast_S600000x3_S600000x3x1_0_1 : S600000x3.BroadcastsInDim S600000x3x1 (![0, 1] : Fin 2 → Fin S600000x3x1.rank)
  reducesTo_S600000x3x1_S600000x1_d1 : S600000x3x1.ReducesTo [1] S600000x1
  h_S_ : 0 < S_.numel
  shapeCasts_S600000x1_S600000 : S600000x1.ShapeCasts S600000
  concatenates_S600000_S100000_S700000_d0 : Shape.Concatenates [S600000, S100000] S700000 0
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S576x128_S128x128_S576x128_1_0_0_1_n_n_wf : DotDims.WF S576x128 S128x128 S576x128 [1] [0] [0] [1] [] []
  dot_S2000x576_S576x128_S2000x128_1_0_0_1_n_n_wf : DotDims.WF S2000x576 S576x128 S2000x128 [1] [0] [0] [1] [] []
  gather_S48x1_S600000x3x1_S600000x3x1_2_0_n_n_0_2_11_wf : GatherDims.WF S48x1 S600000x3x1 S600000x3x1 [2] [0] [] [0] [] 2 ![1, 1]
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x9.size a ≤ S100000x9.size a
  hwx0_0 : ∀ i : grid0.Coords, EltTy.bits .i32 = 32 ∨ (Rect.block (s := S100000x9) S2000x9.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x128.size a
  hwx0_1 : ∀ i : grid0.Coords, EltTy.bits .bf16 = 32 ∨ (Rect.block (s := S576x128) S576x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .bf16 = 32 ∨ (Rect.block (s := S100000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .bf16 = 32 ∨ (Rect.block (s := S100000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .f32 = 32 ∨ (Rect.block (s := S100000x1) S2000x1.size (cc2_transform_4 i) (hinb2_4 i)).WholeWords (EltTy.packing .f32)

variable [Facts₀]

def dot_S576x128_S128x128_S576x128_1_0_0_1_n_n : DotDims S576x128 S128x128 S576x128 where
  lhsContracting := [1]
  rhsContracting := [0]
  lhsNonContracting := [0]
  rhsNonContracting := [1]
  lhsBatch := []
  rhsBatch := []
  wf := dot_S576x128_S128x128_S576x128_1_0_0_1_n_n_wf
def dot_S2000x576_S576x128_S2000x128_1_0_0_1_n_n : DotDims S2000x576 S576x128 S2000x128 where
  lhsContracting := [1]
  rhsContracting := [0]
  lhsNonContracting := [0]
  rhsNonContracting := [1]
  lhsBatch := []
  rhsBatch := []
  wf := dot_S2000x576_S576x128_S2000x128_1_0_0_1_n_n_wf
def gather_S48x1_S600000x3x1_S600000x3x1_2_0_n_n_0_2_11 : GatherDims S48x1 S600000x3x1 S600000x3x1 where
  offsetDims := [2]
  collapsedSliceDims := [0]
  operandBatchingDims := []
  startIndicesBatchingDims := []
  startIndexMap := [0]
  indexVectorDim := 2
  sliceSizes := ![1, 1]
  wf := gather_S48x1_S600000x3x1_S600000x3x1_2_0_n_n_0_2_11_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S576x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v82) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85) S2000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x9 : Shape := ⟨2, ![100000, 9]⟩
abbrev S2x600000 : Shape := ⟨2, ![2, 600000]⟩
abbrev S600000x3 : Shape := ⟨2, ![600000, 3]⟩
abbrev S576x128 : Shape := ⟨2, ![576, 128]⟩
abbrev S48x1 : Shape := ⟨2, ![48, 1]⟩
abbrev S128x128 : Shape := ⟨2, ![128, 128]⟩
abbrev S128 : Shape := ⟨1, ![128]⟩
abbrev S128x1 : Shape := ⟨2, ![128, 1]⟩
abbrev S1 : Shape := ⟨1, ![1]⟩
abbrev S9 : Shape := ⟨1, ![9]⟩
abbrev S_ : Shape := ⟨0, ![]⟩
abbrev S1x9 : Shape := ⟨2, ![1, 9]⟩
abbrev S100000x9x1 : Shape := ⟨3, ![100000, 9, 1]⟩
abbrev S100000x9x128 : Shape := ⟨3, ![100000, 9, 128]⟩
abbrev S100000x128 : Shape := ⟨2, ![100000, 128]⟩
abbrev S3 : Shape := ⟨1, ![3]⟩
abbrev S1x3 : Shape := ⟨2, ![1, 3]⟩
abbrev S600000x3x1 : Shape := ⟨3, ![600000, 3, 1]⟩
abbrev S600000x1 : Shape := ⟨2, ![600000, 1]⟩
abbrev S600000 : Shape := ⟨1, ![600000]⟩
abbrev S1x600000 : Shape := ⟨2, ![1, 600000]⟩
abbrev S100000 : Shape := ⟨1, ![100000]⟩
abbrev S700000 : Shape := ⟨1, ![700000]⟩
abbrev S700000x1 : Shape := ⟨2, ![700000, 1]⟩
abbrev S700000x128 : Shape := ⟨2, ![700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S100000x9, .i32⟩
  | 1 => ⟨S2x600000, .i32⟩
  | 2 => ⟨S600000x3, .i32⟩
  | 3 => ⟨S576x128, .f32⟩
  | 4 => ⟨S48x1, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S9, .i32⟩
  | 12 => ⟨S_, .i32⟩
  | 13 => ⟨S9, .i32⟩
  | 14 => ⟨S9, .i32⟩
  | 15 => ⟨S1x9, .i32⟩
  | 16 => ⟨S100000x9, .i32⟩
  | 17 => ⟨S100000x9, .i32⟩
  | 18 => ⟨S_, .i32⟩
  | 19 => ⟨S100000x9, .i32⟩
  | 20 => ⟨S100000x9, .i1⟩
  | 21 => ⟨S_, .i32⟩
  | 22 => ⟨S100000x9, .i32⟩
  | 23 => ⟨S100000x9, .i32⟩
  | 24 => ⟨S100000x9, .i32⟩
  | 25 => ⟨S100000x9x1, .i32⟩
  | 26 => ⟨S100000x9x128, .f32⟩
  | 27 => ⟨S_, .f32⟩
  | 28 => ⟨S100000x128, .f32⟩
  | 29 => ⟨S3, .i32⟩
  | 30 => ⟨S_, .i32⟩
  | 31 => ⟨S3, .i32⟩
  | 32 => ⟨S3, .i32⟩
  | 33 => ⟨S1x3, .i32⟩
  | 34 => ⟨S600000x3, .i32⟩
  | 35 => ⟨S600000x3, .i32⟩
  | 36 => ⟨S_, .i32⟩
  | 37 => ⟨S600000x3, .i32⟩
  | 38 => ⟨S600000x3, .i1⟩
  | 39 => ⟨S_, .i32⟩
  | 40 => ⟨S600000x3, .i32⟩
  | 41 => ⟨S600000x3, .i32⟩
  | 42 => ⟨S600000x3, .i32⟩
  | 43 => ⟨S600000x3x1, .i32⟩
  | 44 => ⟨S600000x3x1, .f32⟩
  | 45 => ⟨S_, .f32⟩
  | 46 => ⟨S600000x1, .f32⟩
  | 47 => ⟨S600000, .f32⟩
  | 48 => ⟨S1x600000, .i32⟩
  | 49 => ⟨S600000, .i32⟩
  | 50 => ⟨S1x600000, .i32⟩
  | 51 => ⟨S600000, .i32⟩
  | 52 => ⟨S100000x128, .f32⟩
  | 53 => ⟨S100000, .i32⟩
  | 54 => ⟨S700000, .i32⟩
  | 55 => ⟨S700000, .i32⟩
  | 56 => ⟨S_, .f32⟩
  | 57 => ⟨S100000, .f32⟩
  | 58 => ⟨S700000, .f32⟩
  | 59 => ⟨S_, .f32⟩
  | 60 => ⟨S100000, .f32⟩
  | 61 => ⟨S700000x1, .i32⟩
  | 62 => ⟨S100000, .f32⟩
  | 63 => ⟨S_, .f32⟩
  | 64 => ⟨S100000, .f32⟩
  | 65 => ⟨S100000, .i1⟩
  | 66 => ⟨S_, .f32⟩
  | 67 => ⟨S100000, .f32⟩
  | 68 => ⟨S100000, .i1⟩
  | 69 => ⟨S_, .f32⟩
  | 70 => ⟨S_, .f32⟩
  | 71 => ⟨S100000, .f32⟩
  | 72 => ⟨S100000, .f32⟩
  | 73 => ⟨S100000, .f32⟩
  | 74 => ⟨S_, .f32⟩
  | 75 => ⟨S_, .f32⟩
  | 76 => ⟨S100000, .f32⟩
  | 77 => ⟨S100000, .f32⟩
  | 78 => ⟨S_, .i32⟩
  | 79 => ⟨S700000, .i32⟩
  | 80 => ⟨S700000, .i1⟩
  | 81 => ⟨S_, .i32⟩
  | 82 => ⟨S700000, .i32⟩
  | 83 => ⟨S700000, .i32⟩
  | 84 => ⟨S700000, .i32⟩
  | 85 => ⟨S700000x1, .i32⟩
  | 86 => ⟨S700000, .f32⟩
  | 87 => ⟨S700000, .f32⟩
  | 88 => ⟨S_, .i32⟩
  | 89 => ⟨S700000, .i32⟩
  | 90 => ⟨S700000, .i1⟩
  | 91 => ⟨S_, .i32⟩
  | 92 => ⟨S700000, .i32⟩
  | 93 => ⟨S700000, .i32⟩
  | 94 => ⟨S700000, .i32⟩
  | 95 => ⟨S700000x1, .i32⟩
  | 96 => ⟨S700000, .f32⟩
  | 97 => ⟨S700000, .f32⟩
  | 98 => ⟨S_, .i32⟩
  | 99 => ⟨S700000, .i32⟩
  | 100 => ⟨S700000, .i1⟩
  | 101 => ⟨S_, .i32⟩
  | 102 => ⟨S700000, .i32⟩
  | 103 => ⟨S700000, .i32⟩
  | 104 => ⟨S700000, .i32⟩
  | 105 => ⟨S700000x1, .i32⟩
  | 106 => ⟨S700000x128, .f32⟩
  | 107 => ⟨S700000x1, .f32⟩
  | 108 => ⟨S700000x128, .f32⟩
  | 109 => ⟨S700000x128, .f32⟩
  | 110 => ⟨S_, .f32⟩
  | 111 => ⟨S100000x128, .f32⟩
  | 112 => ⟨S700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S100000, .i32⟩
  | 122 => ⟨S700000, .i32⟩
  | 123 => ⟨S700000, .i32⟩
  | 124 => ⟨S_, .f32⟩
  | 125 => ⟨S100000, .f32⟩
  | 126 => ⟨S700000, .f32⟩
  | 127 => ⟨S_, .f32⟩
  | _ => ⟨S100000x9, .i32⟩

abbrev hbmTy0_1 (i : Nat) : BufTy := match i % 128 with
  | 0 => ⟨S100000, .f32⟩
  | 1 => ⟨S700000x1, .i32⟩
  | 2 => ⟨S100000, .f32⟩
  | 3 => ⟨S_, .f32⟩
  | 4 => ⟨S100000, .f32⟩
  | 5 => ⟨S100000, .i1⟩
  | 6 => ⟨S_, .f32⟩
  | 7 => ⟨S100000, .f32⟩
  | 8 => ⟨S100000, .i1⟩
  | 9 => ⟨S_, .f32⟩
  | 10 => ⟨S_, .f32⟩
  | 11 => ⟨S100000, .f32⟩
  | 12 => ⟨S100000, .f32⟩
  | 13 => ⟨S100000, .f32⟩
  | 14 => ⟨S_, .f32⟩
  | 15 => ⟨S_, .f32⟩
  | 16 => ⟨S100000, .f32⟩
  | 17 => ⟨S100000, .f32⟩
  | 18 => ⟨S_, .i32⟩
  | 19 => ⟨S700000, .i32⟩
  | 20 => ⟨S700000, .i1⟩
  | 21 => ⟨S_, .i32⟩
  | 22 => ⟨S700000, .i32⟩
  | 23 => ⟨S700000, .i32⟩
  | 24 => ⟨S700000, .i32⟩
  | 25 => ⟨S700000x1, .i32⟩
  | 26 => ⟨S700000, .f32⟩
  | 27 => ⟨S700000, .f32⟩
  | 28 => ⟨S_, .i32⟩
  | 29 => ⟨S700000, .i32⟩
  | 30 => ⟨S700000, .i1⟩
  | 31 => ⟨S_, .i32⟩
  | 32 => ⟨S700000, .i32⟩
  | 33 => ⟨S700000, .i32⟩
  | 34 => ⟨S700000, .i32⟩
  | 35 => ⟨S700000x1, .i32⟩
  | 36 => ⟨S700000, .f32⟩
  | 37 => ⟨S700000, .f32⟩
  | 38 => ⟨S_, .i32⟩
  | 39 => ⟨S700000, .i32⟩
  | 40 => ⟨S700000, .i1⟩
  | 41 => ⟨S_, .i32⟩
  | 42 => ⟨S700000, .i32⟩
  | 43 => ⟨S700000, .i32⟩
  | 44 => ⟨S700000, .i32⟩
  | 45 => ⟨S700000x1, .i32⟩
  | 46 => ⟨S700000x128, .f32⟩
  | 47 => ⟨S700000x1, .f32⟩
  | 48 => ⟨S700000x128, .f32⟩
  | 49 => ⟨S700000x128, .f32⟩
  | 50 => ⟨S_, .f32⟩
  | 51 => ⟨S100000x128, .f32⟩
  | 52 => ⟨S700000x1, .i32⟩
  | 53 => ⟨S100000x128, .f32⟩
  | 54 => ⟨S1x128, .f32⟩
  | 55 => ⟨S100000x128, .f32⟩
  | 56 => ⟨S100000x128, .f32⟩
  | 57 => ⟨S100000x1, .f32⟩
  | 58 => ⟨S1x1, .f32⟩
  | 59 => ⟨S100000x1, .f32⟩
  | 60 => ⟨S100000x1, .f32⟩
  | 61 => ⟨S100000x1, .f32⟩
  | 62 => ⟨S100000x1, .f32⟩
  | 63 => ⟨S_, .f32⟩
  | 64 => ⟨S100000x1, .f32⟩
  | 65 => ⟨S100000x1, .f32⟩
  | 66 => ⟨S_, .f32⟩
  | 67 => ⟨S100000x1, .f32⟩
  | 68 => ⟨S100000x1, .f32⟩
  | _ => ⟨S100000x9, .i32⟩

abbrev hbmTy (i : Nat) : BufTy := match i / 128 with
  | 0 => hbmTy0_0 i
  | 1 => hbmTy0_1 i
  | _ => ⟨S100000x9, .i32⟩

abbrev bufTy : (tb : Table) → Fin (tcTables nBuf tb) → BufTy
  | .hbm, ⟨i, _⟩ => hbmTy i
  | _, _ => ⟨S100000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_call0_v0 : Ref sig .tc := ⟨.hbm, 70, rfl⟩
abbrev main_call0_v1 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_c_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_c_15 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_16 : Ref sig .tc := ⟨.hbm, 98, rfl⟩
abbrev main_v65 : Ref sig .tc := ⟨.hbm, 99, rfl⟩
abbrev main_v66 : Ref sig .tc := ⟨.hbm, 100, rfl⟩
abbrev main_c_17 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call2_cst : Ref sig .tc := ⟨.hbm, 117, rfl⟩
abbrev main_call2_v0 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_19 : Ref sig .tc := ⟨.hbm, 124, rfl⟩
abbrev main_v86 : Ref sig .tc := ⟨.hbm, 125, rfl⟩
abbrev main_v87 : Ref sig .tc := ⟨.hbm, 126, rfl⟩
abbrev main_cst_20 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_21 : Ref sig .tc := ⟨.hbm, 131, rfl⟩
abbrev main_v91 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_cst_23 : Ref sig .tc := ⟨.hbm, 137, rfl⟩
abbrev main_call3_v0 : Ref sig .tc := ⟨.hbm, 138, rfl⟩
abbrev main_call3_v1 : Ref sig .tc := ⟨.hbm, 139, rfl⟩
abbrev main_v95 : Ref sig .tc := ⟨.hbm, 140, rfl⟩
abbrev main_v96 : Ref sig .tc := ⟨.hbm, 141, rfl⟩
abbrev main_cst_24 : Ref sig .tc := ⟨.hbm, 142, rfl⟩
abbrev main_call4_v0 : Ref sig .tc := ⟨.hbm, 143, rfl⟩
abbrev main_call4_v1 : Ref sig .tc := ⟨.hbm, 144, rfl⟩
abbrev main_v97 : Ref sig .tc := ⟨.hbm, 145, rfl⟩
abbrev main_c_25 : Ref sig .tc := ⟨.hbm, 146, rfl⟩
abbrev main_v98 : Ref sig .tc := ⟨.hbm, 147, rfl⟩
abbrev main_v99 : Ref sig .tc := ⟨.hbm, 148, rfl⟩
abbrev main_c_26 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_27 : Ref sig .tc := ⟨.hbm, 156, rfl⟩
abbrev main_v106 : Ref sig .tc := ⟨.hbm, 157, rfl⟩
abbrev main_v107 : Ref sig .tc := ⟨.hbm, 158, rfl⟩
abbrev main_c_28 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_c_29 : Ref sig .tc := ⟨.hbm, 166, rfl⟩
abbrev main_v114 : Ref sig .tc := ⟨.hbm, 167, rfl⟩
abbrev main_v115 : Ref sig .tc := ⟨.hbm, 168, rfl⟩
abbrev main_c_30 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_31 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_32 : Ref sig .tc := ⟨.hbm, 191, rfl⟩
abbrev main_v136 : Ref sig .tc := ⟨.hbm, 192, rfl⟩
abbrev main_v137 : Ref sig .tc := ⟨.hbm, 193, rfl⟩
abbrev main_cst_33 : Ref sig .tc := ⟨.hbm, 194, rfl⟩
abbrev main_v138 : Ref sig .tc := ⟨.hbm, 195, rfl⟩
abbrev main_v139 : Ref sig .tc := ⟨.hbm, 196, rfl⟩

abbrev nD : Nat := 1
abbrev τ : Topo := Topo.v7x

variable {F : FTy → Type} [FloatOps F]

class Facts₀ : Prop where
  bcast_S_S9 : S_.BroadcastsInDim S9 (![] : Fin 0 → Fin S9.rank)
  bcast_S9_S1x9_1 : S9.BroadcastsInDim S1x9 (![1] : Fin 1 → Fin S1x9.rank)
  bcast_S1x9_S100000x9_0_1 : S1x9.BroadcastsInDim S100000x9 (![0, 1] : Fin 2 → Fin S100000x9.rank)
  bcast_S_S100000x9 : S_.BroadcastsInDim S100000x9 (![] : Fin 0 → Fin S100000x9.rank)
  bcast_S100000x9_S100000x9x1_0_1 : S100000x9.BroadcastsInDim S100000x9x1 (![0, 1] : Fin 2 → Fin S100000x9x1.rank)
  reducesTo_S100000x9x128_S100000x128_d1 : S100000x9x128.ReducesTo [1] S100000x128
  h_S_ : 0 < S_.numel
  bcast_S_S3 : S_.BroadcastsInDim S3 (![] : Fin 0 → Fin S3.rank)
  bcast_S3_S1x3_1 : S3.BroadcastsInDim S1x3 (![1] : Fin 1 → Fin S1x3.rank)
  bcast_S1x3_S600000x3_0_1 : S1x3.BroadcastsInDim S600000x3 (![0, 1] : Fin 2 → Fin S600000x3.rank)
  bcast_S_S600000x3 : S_.BroadcastsInDim S600000x3 (![] : Fin 0 → Fin S600000x3.rank)
  bcast_S600000x3_S600000x3x1_0_1 : S600000x3.BroadcastsInDim S600000x3x1 (![0, 1] : Fin 2 → Fin S600000x3x1.rank)
  reducesTo_S600000x3x1_S600000x1_d1 : S600000x3x1.ReducesTo [1] S600000x1
  shapeCasts_S600000x1_S600000 : S600000x1.ShapeCasts S600000
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S576x128_S100000x9x1_S100000x9x128_2_0_n_n_0_2_1128_wf : GatherDims.WF S576x128 S100000x9x1 S100000x9x128 [2] [0] [] [0] [] 2 ![1, 128]
  gather_S48x1_S600000x3x1_S600000x3x1_2_0_n_n_0_2_11_wf : GatherDims.WF S48x1 S600000x3x1 S600000x3x1 [2] [0] [] [0] [] 2 ![1, 1]
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x1_S100000x1_1_0_0_1_n_n_wf : DotDims.WF S100000x128 S128x1 S100000x1 [1] [0] [0] [1] [] []

variable [Facts₀]

def gather_S576x128_S100000x9x1_S100000x9x128_2_0_n_n_0_2_1128 : GatherDims S576x128 S100000x9x1 S100000x9x128 where
  offsetDims := [2]
  collapsedSliceDims := [0]
  operandBatchingDims := []
  startIndicesBatchingDims := []
  startIndexMap := [0]
  indexVectorDim := 2
  sliceSizes := ![1, 128]
  wf := gather_S576x128_S100000x9x1_S100000x9x128_2_0_n_n_0_2_1128_wf
def gather_S48x1_S600000x3x1_S600000x3x1_2_0_n_n_0_2_11 : GatherDims S48x1 S600000x3x1 S600000x3x1 where
  offsetDims := [2]
  collapsedSliceDims := [0]
  operandBatchingDims := []
  startIndicesBatchingDims := []
  startIndexMap := [0]
  indexVectorDim := 2
  sliceSizes := ![1, 1]
  wf := gather_S48x1_S600000x3x1_S600000x3x1_2_0_n_n_0_2_11_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.SpecG.lean ====
/-
  The three dense maps of the network written index by index over the extended reals, as sums over the contracted
  axis — what the three kernel regions leave in their output arrays —, and the two hypotheses the first region's
  algebra needs.
-/
import Idealize.ShloMosaic.Lib.ValueIdx
import Idealize.ShloMosaic.PureOps.Ideal

noncomputable section

namespace Cert.Bridge

open Idealize.ShloMosaic Idealize.ShloMosaic.ValueIdx

/-! ## The three dense maps index by index, over the extended reals -/

/-- Region 0's closed form: entry `(n, j)` is `Σ_k c_k · T[k, j]` with `c_k` the number of features `f` of node `n` whose
    offset index `x[n, f] + 64 f` (a 32-bit word sum) is the word `k`. -/
def G0 (x : (⟨2, ![100000, 9]⟩ : Shape).Idx → BitVec 32) (T : (⟨2, ![576, 128]⟩ : Shape).Idx → EReal) :
    (⟨2, ![100000, 128]⟩ : Shape).Idx → EReal :=
  fun i => ∑ k : Fin 576, (∑ f : Fin 9, if x (ix2 (i 0) f) + BitVec.ofNat 32 (64 * f.val) = BitVec.ofNat 32 k.val then (1 : EReal) else 0)
    * T (ix2 k (i 1))

/-- Region 1's closed form: entry `(n, j)` is `Σ_k max (a[n, k] + b[0, k]) 0 · w[k, j]`. -/
def G1 (a : (⟨2, ![100000, 128]⟩ : Shape).Idx → EReal) (b : (⟨2, ![1, 128]⟩ : Shape).Idx → EReal)
    (w : (⟨2, ![128, 128]⟩ : Shape).Idx → EReal) : (⟨2, ![100000, 128]⟩ : Shape).Idx → EReal :=
  fun i => ∑ k : Fin 128, max (a (ix2 (i 0) k) + b (ix2 0 k)) 0 * w (ix2 k (i 1))

/-- Region 2's closed form: entry `(n, 0)` is the logistic of `Σ_k (a[n, k] + b[0, k]) · w[k, 0] + lb[0, 0]`. -/
def G2 (a : (⟨2, ![100000, 128]⟩ : Shape).Idx → EReal) (b : (⟨2, ![1, 128]⟩ : Shape).Idx → EReal)
    (w : (⟨2, ![128, 1]⟩ : Shape).Idx → EReal) (lb : (⟨2, ![1, 1]⟩ : Shape).Idx → EReal) :
    (⟨2, ![100000, 1]⟩ : Shape).Idx → EReal :=
  fun i => Ideal.logistic ((∑ k : Fin 128, (a (ix2 (i 0) k) + b (ix2 0 k)) * w (ix2 k (i 1))) + lb (ix2 0 0))

/-! ## The two hypotheses the first region's algebra needs -/

/-- Every offset index `x[n, f] + 64 f` (the 32-bit word sum both programs compute) is a row of the 576-row table. -/
def InRange (x : (⟨2, ![100000, 9]⟩ : Shape).Idx → BitVec 32) : Prop :=
  ∀ (p : Fin 100000) (f : Fin 9),
    0 ≤ (x (ix2 p f) + BitVec.ofNat 32 (64 * f.val)).toInt ∧ (x (ix2 p f) + BitVec.ofNat 32 (64 * f.val)).toInt < 576

/-- Every entry is a real number. -/
def Finite {s : Shape} (a : s.Idx → EReal) : Prop := ∀ i, a i ≠ ⊤ ∧ a i ≠ ⊥

end Cert.Bridge

end
-- ==== Proof.Spec.lean ====
/-
  The shared vocabulary of the value proof.

  The network is: node features h₁ = (Σ_f atom_table[x[n,f] + 64 f]) · W1, a symmetric-normalised aggregation over the
  edge list with self loops, a bias, a ReLU, a second linear map W2, the same aggregation again, a bias, the linear head
  and a logistic. The reference program computes the aggregation twice from the same edge data; both copies are ONE
  function `agg` of the node features. `layer` is "add b, clamp at zero, multiply by W" and `head` is "add b, multiply by
  the head's column, add its bias, logistic written as 1 / (1 + e^(-z))". With these the reference's result is
  `head (agg (layer (agg h₁)))` (`ref_decomp`), by unfolding only.

  The same three dense maps written index by index (`G0`, `G1`, `G2`) are in Proof/SpecG.lean.
-/
import proofs.«414741_j70111046140326_3_alg».proof.Proof.Gen.ReferenceIdeal.Read
import proofs.«414741_j70111046140326_3_alg».proof.Proof.SpecG
import Idealize.ShloMosaic.Lib.ValueIdx
import Idealize.ShloMosaic.PureOps.Ideal

noncomputable section

namespace Cert.Bridge

open Cert.ReferenceIdeal Cert.ReferenceIdeal.Gen Cert.ReferenceIdeal.Read
open Idealize.ShloMosaic Idealize.ShloMosaic.ValueIdx

/-! ## The three stages of the network as whole-array functions -/

section Stages
variable {F : FTy → Type} [FloatOps F]

/-- Aggregation of node features `h` along the edges: row `n` of the result is the sum, over the edges and self loops
    `e` whose target is `n`, of `norm e · h[source e]`, where `norm` is the symmetric degree normalisation computed from
    the edge weights (sums of three bond-table entries per edge, weight one on a self loop). -/
def agg (h : (⟨S100000x128, .f32⟩ : BufTy).Contents (Elt F)) (x1 : (⟨S2x600000, .i32⟩ : BufTy).Contents (Elt F))
    (x2 : (⟨S600000x3, .i32⟩ : BufTy).Contents (Elt F)) (x4 : (⟨S48x1, .f32⟩ : BufTy).Contents (Elt F)) :
    (⟨S100000x128, .f32⟩ : BufTy).Contents (Elt F) :=
  Host.scatterAdd scatter_S100000x128_S700000x1_S700000x128_1_0_0_1 (val_main_v75 (F := F)) (val_main_v76 (F := F) x1)
    (mulf (Host.gather gather_S100000x128_S700000x1_S700000x128_1_0_n_n_0_1_1128 h (val_main_v70 (F := F) x1))
      (val_main_v73 (F := F) x1 x2 x4))

/-- One dense layer: `max (a + b) 0`, then the product with `w`. -/
def layer (a : (⟨S100000x128, .f32⟩ : BufTy).Contents (Elt F)) (x6 : (⟨S128, .f32⟩ : BufTy).Contents (Elt F))
    (x7 : (⟨S128x128, .f32⟩ : BufTy).Contents (Elt F)) : (⟨S100000x128, .f32⟩ : BufTy).Contents (Elt F) :=
  Host.dotGeneral dot_S100000x128_S128x128_S100000x128_1_0_0_1_n_n none
    (maximumf (addf a (val_main_v79 (F := F) x6)) (val_main_call2_v0 (F := F))) x7

/-- The head: `1 / (1 + exp (-((a + b) · w + lb)))`. -/
def head (a : (⟨S100000x128, .f32⟩ : BufTy).Contents (Elt F)) (x8 : (⟨S128, .f32⟩ : BufTy).Contents (Elt F))
    (x9 : (⟨S128x1, .f32⟩ : BufTy).Contents (Elt F)) (x10 : (⟨S1, .f32⟩ : BufTy).Contents (Elt F)) :
    (⟨S100000x1, .f32⟩ : BufTy).Contents (Elt F) :=
  Host.divf (val_main_v138 (F := F)) (addf (val_main_v136 (F := F)) (Host.exp (Host.negf
    (addf (Host.dotGeneral dot_S100000x128_S128x1_S100000x1_1_0_0_1_n_n none (addf a (val_main_v128 (F := F) x8)) x9)
      (val_main_v132 (F := F) x10)))))

variable (x0 : (⟨S100000x9, .i32⟩ : BufTy).Contents (Elt F)) (x1 : (⟨S2x600000, .i32⟩ : BufTy).Contents (Elt F))
  (x2 : (⟨S600000x3, .i32⟩ : BufTy).Contents (Elt F)) (x3 : (⟨S576x128, .f32⟩ : BufTy).Contents (Elt F))
  (x4 : (⟨S48x1, .f32⟩ : BufTy).Contents (Elt F)) (x5 : (⟨S128x128, .f32⟩ : BufTy).Contents (Elt F))
  (x6 : (⟨S128, .f32⟩ : BufTy).Contents (Elt F)) (x7 : (⟨S128x128, .f32⟩ : BufTy).Contents (Elt F))
  (x8 : (⟨S128, .f32⟩ : BufTy).Contents (Elt F)) (x9 : (⟨S128x1, .f32⟩ : BufTy).Contents (Elt F))
  (x10 : (⟨S1, .f32⟩ : BufTy).Contents (Elt F))

/-- The first aggregation of the reference is `agg` of its first linear map. -/
theorem ref_agg1 : val_main_v77 (F := F) x0 x1 x2 x3 x4 x5 = agg (val_main_v33 (F := F) x0 x3 x5) x1 x2 x4 := rfl

/-- The reference's second linear map is `layer` of the first aggregation. -/
theorem ref_layer : val_main_v82 (F := F) x0 x1 x2 x3 x4 x5 x6 x7 = layer (val_main_v77 (F := F) x0 x1 x2 x3 x4 x5) x6 x7 := rfl

/-- The reference recomputes the edge data for its second aggregation; the recomputed zero array, target indices,
    source indices and normalisation are the first ones. -/
theorem zero2 : val_main_v124 (F := F) = val_main_v75 (F := F) := rfl
theorem tgt2 : val_main_v125 (F := F) x1 = val_main_v76 (F := F) x1 := rfl
theorem src2 : val_main_v119 (F := F) x1 = val_main_v70 (F := F) x1 := rfl
theorem norm2 : val_main_v122 (F := F) x1 x2 x4 = val_main_v73 (F := F) x1 x2 x4 := rfl

/-- The second aggregation of the reference is the same `agg`, of its second linear map. -/
theorem ref_agg2 : val_main_v126 (F := F) x0 x1 x2 x3 x4 x5 x6 x7 = agg (val_main_v82 (F := F) x0 x1 x2 x3 x4 x5 x6 x7) x1 x2 x4 := by
  unfold val_main_v126 val_main_v123 val_main_v120 agg
  rw [zero2, tgt2, src2, norm2]

/-- The reference's result is `head` of the second aggregation. -/
theorem ref_head : val_main_v139 (F := F) x0 x1 x2 x3 x4 x5 x6 x7 x8 x9 x10
    = head (val_main_v126 (F := F) x0 x1 x2 x3 x4 x5 x6 x7) x8 x9 x10 := rfl

/-- The reference, decomposed. -/
theorem ref_decomp : val_main_v139 (F := F) x0 x1 x2 x3 x4 x5 x6 x7 x8 x9 x10
    = head (agg (layer (agg (val_main_v33 (F := F) x0 x3 x5) x1 x2 x4) x6 x7) x1 x2 x4) x8 x9 x10 := by
  rw [ref_head, ref_agg2, ref_layer, ref_agg1]

end Stages

end Cert.Bridge

end
-- ==== Proof.Region0Value.lean ====
/-
  Region 0 (the atom encoder fused with the first linear map): each grid point writes a 2000-row block of the one-hot counts times the table; the fifty blocks tile the array.
-/
import proofs.«414741_j70111046140326_3_alg».proof.Proof.Gen.KernelIdeal.Frame
import proofs.«414741_j70111046140326_3_alg».proof.Proof.SpecG
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One feature's one-hot plane at an index

For a feature column `f` the body compares, lane by lane, the word `x[p, f] + c` (`c` the feature's offset word) with the
lane's own index, widens the one-bit answer to a word and converts it: at `(p, k)` that is `1` when the offset index is
the lane `k` and `0` otherwise. -/

/-- A comparison bit for equality, widened to 32 bits and read as a signed integer, is `1` or `0`. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  unfold IntOp.cmpi
  by_cases h : a = b
  · subst h; simp
  · have hb : (a == b) = false := by simpa using h
    simp [hb, h]

/-- A column `[2000, 1]` broadcast along the 576 lanes reads, at `(p, k)`, the column's entry of row `p`. -/
theorem bcol_apply {α : Type} (v : S2000x1.Idx → α) (p : Fin 2000) (k : Fin 576) :
    broadcastTo S2000x576 v broadcasts_S2000x1_S2000x576 (ix2 p k) = v (ix2 p (0 : Fin 1)) := by
  refine broadcastTo_apply v _ (ix2 p k) (ix2 p (0 : Fin 1)) fun ax => ?_
  match ax with
  | ⟨0, _⟩ => rfl
  | ⟨1, _⟩ => rfl

/-- The lane index `[1, 576]` broadcast along the 2000 rows reads, at `(p, k)`, the word `k`. -/
theorem biota_apply (p : Fin 2000) (k : Fin 576) :
    broadcastTo S2000x576 (iota .tc S1x576 32 [1] iota_S1x576_d1_w32) broadcasts_S1x576_S2000x576 (ix2 p k) = BitVec.ofNat 32 k.val := by
  rw [broadcastTo_1b_ab_apply, iota_single_apply]

/-- The indicator that feature `f` of row `p`, offset by the word `c`, is lane `k`. -/
def ind (x0 : S2000x9.Idx → BitVec 32) (p : Fin 2000) (k : Fin 576) (f : Fin 9) (c : BitVec 32) : EReal :=
  if x0 (ix2 p f) + c = BitVec.ofNat 32 k.val then 1 else 0

/-- One feature's one-hot plane at `(p, k)` is the indicator: the column slice at offset `o` reads feature `f = o`,
    the word addition is `+`, the two broadcasts read the row's entry and the lane's index. -/
theorem plane_apply (x0 : S2000x9.Idx → BitVec 32) (o : Nat) (c : BitVec 32) (hs : S2000x9.Slices ![0, o] S2000x1)
    (f : Fin 9) (hf : f.val = o) (p : Fin 2000) (k : Fin 576) :
    (sitofp .f32 (extui 32 (cmpi .eq (broadcastTo S2000x576 (addi (extractStridedSlice S2000x1 ![0, o] x0 hs) (broadcast S2000x1 c)) broadcasts_S2000x1_S2000x576)
      (broadcastTo S2000x576 (iota .tc S1x576 32 [1] iota_S1x576_d1_w32) broadcasts_S1x576_S2000x576)) natLt_1_32) : FVec Ideal S2000x576 .f32) (ix2 p k)
      = ind x0 p k f c := by
  show FloatOps.sitofp (F := Ideal) .f32 ((IntOp.cmpi .eq (broadcastTo S2000x576 _ _ (ix2 p k)) (broadcastTo S2000x576 _ _ (ix2 p k))).setWidth 32) = _
  rw [bcol_apply, biota_apply, onehot_word]
  show (if IntOp.addi (extractStridedSlice S2000x1 ![0, o] x0 hs (ix2 p 0)) c = _ then _ else _) = _
  rw [slice2_axis1_apply o x0 hs p (0 : Fin 1) f (by simpa using hf)]
  rfl

/-- The bf16 zero word is the extended real zero. -/
theorem ofBits_zero_bf16 : Ideal.ofBits .bf16 0x0000#16 = 0 := by simp [Ideal.ofBits, Ideal.ieee]

/-! ## The count the body accumulates

The body adds the nine planes one after the other onto the zero plane (format changes are the identity on the extended
reals): features 0 to 3 in its first part, feature 4 carried over unconverted, features 5 to 8 in the rest. -/

/-- Feature 4's plane. -/
theorem pay3_apply (x0 : Vec Ideal S2000x9 .i32) (p : Fin 2000) (k : Fin 576) :
    k0_pay3 (F := Ideal) x0 (ix2 p k) = ind x0 p k 4 256#32 := by
  unfold k0_pay3
  exact plane_apply x0 4 256#32 slices_S2000x9_o0_4_S2000x1 4 rfl p k

/-- Features 0 to 3 added onto the zero plane. -/
theorem pay2_apply (x0 : Vec Ideal S2000x9 .i32) (p : Fin 2000) (k : Fin 576) :
    k0_pay2 (F := Ideal) x0 (ix2 p k) = (((0 + ind x0 p k 0 0#32) + ind x0 p k 1 64#32) + ind x0 p k 2 128#32) + ind x0 p k 3 192#32 := by
  unfold k0_pay2
  simp only [addf_apply, truncf_apply, broadcast_apply]
  rw [plane_apply x0 0 0#32 slices_S2000x9_o0_0_S2000x1 0 rfl p k, plane_apply x0 1 64#32 slices_S2000x9_o0_1_S2000x1 1 rfl p k,
    plane_apply x0 2 128#32 slices_S2000x9_o0_2_S2000x1 2 rfl p k, plane_apply x0 3 192#32 slices_S2000x9_o0_3_S2000x1 3 rfl p k]
  show ((((Ideal.ofBits .bf16 0x0000#16 + _) + _) + _) + _) = _
  rw [ofBits_zero_bf16]

/-- The count of the nine features of row `p` that land on lane `k`, in the order the body adds them up. -/
def cnt (x0 : S2000x9.Idx → BitVec 32) (p : Fin 2000) (k : Fin 576) : EReal :=
  ((((((((0 + ind x0 p k 0 0#32) + ind x0 p k 1 64#32) + ind x0 p k 2 128#32) + ind x0 p k 3 192#32) + ind x0 p k 4 256#32)
    + ind x0 p k 5 320#32) + ind x0 p k 6 384#32) + ind x0 p k 7 448#32) + ind x0 p k 8 512#32

/-! ## The product with the table

The operand indices of the `[2000, 576] × [576, 128]` product at output index `(p, q)` and contraction coordinate `k`
are `(p, k)` and `(k, q)`; the contraction index set is re-indexed by its one coordinate. -/

theorem lhs_dot_0 (i : S2000x128.Idx) (q : dot_S2000x576_S576x128_S2000x128_1_0_0_1_n_n.contr.Idx) :
    (dot_S2000x576_S576x128_S2000x128_1_0_0_1_n_n.lhsIdx i q 0).val = (i 0).val := by
  unfold DotDims.lhsIdx
  rw [dif_neg (show ¬(0 : Fin S2000x576.rank) ∈ dot_S2000x576_S576x128_S2000x128_1_0_0_1_n_n.lhsBatch by decide), dif_pos (show (0 : Fin S2000x576.rank) ∈ dot_S2000x576_S576x128_S2000x128_1_0_0_1_n_n.lhsNonContracting by decide)]
  rfl
theorem lhs_dot_1 (i : S2000x128.Idx) (q : dot_S2000x576_S576x128_S2000x128_1_0_0_1_n_n.contr.Idx) :
    (dot_S2000x576_S576x128_S2000x128_1_0_0_1_n_n.lhsIdx i q 1).val = (q ⟨0, by decide⟩).val :=
  dot_S2000x576_S576x128_S2000x128_1_0_0_1_n_n.lhsIdx_val_of_single rfl i q
theorem rhs_dot_0 (i : S2000x128.Idx) (q : dot_S2000x576_S576x128_S2000x128_1_0_0_1_n_n.contr.Idx) :
    (dot_S2000x576_S576x128_S2000x128_1_0_0_1_n_n.rhsIdx i q 0).val = (q ⟨0, by decide⟩).val :=
  dot_S2000x576_S576x128_S2000x128_1_0_0_1_n_n.rhsIdx_val_of_single rfl i q
theorem rhs_dot_1 (i : S2000x128.Idx) (q : dot_S2000x576_S576x128_S2000x128_1_0_0_1_n_n.contr.Idx) :
    (dot_S2000x576_S576x128_S2000x128_1_0_0_1_n_n.rhsIdx i q 1).val = (i 1).val := by
  unfold DotDims.rhsIdx
  rw [dif_neg (show ¬(1 : Fin S576x128.rank) ∈ dot_S2000x576_S576x128_S2000x128_1_0_0_1_n_n.rhsBatch by decide), dif_pos (show (1 : Fin S576x128.rank) ∈ dot_S2000x576_S576x128_S2000x128_1_0_0_1_n_n.rhsNonContracting by decide)]
  rfl

/-- The block product into the zero accumulator at `(p, q)`: the sum over the 576 lanes of the products. -/
theorem matmul_apply0 (a : FVec Ideal S2000x576 .bf16) (b : FVec Ideal S576x128 .bf16) (p : Fin 2000) (q : Fin 128) :
    matmul dot_S2000x576_S576x128_S2000x128_1_0_0_1_n_n none a b (constant (F := Ideal) S2000x128 .f32 0x00000000#32) (ix2 p q)
      = ∑ k : Fin 576, a (ix2 p k) * b (ix2 k q) := by
  simp only [matmul]
  rw [Ideal.matmul_constant_zero_apply, ← Equiv.sum_comp (contrEquiv1 dot_S2000x576_S576x128_S2000x128_1_0_0_1_n_n 576 rfl rfl).symm]
  refine Finset.sum_congr rfl fun k _ => ?_
  have hk := contrEquiv1_symm_val dot_S2000x576_S576x128_S2000x128_1_0_0_1_n_n 576 rfl rfl k
  have el : dot_S2000x576_S576x128_S2000x128_1_0_0_1_n_n.lhsIdx (ix2 p q) ((contrEquiv1 dot_S2000x576_S576x128_S2000x128_1_0_0_1_n_n 576 rfl rfl).symm k) = ix2 p k := funext fun ax => Fin.ext (by
    match ax with
    | ⟨0, _⟩ => exact lhs_dot_0 _ _
    | ⟨1, _⟩ => exact (lhs_dot_1 _ _).trans hk)
  have er : dot_S2000x576_S576x128_S2000x128_1_0_0_1_n_n.rhsIdx (ix2 p q) ((contrEquiv1 dot_S2000x576_S576x128_S2000x128_1_0_0_1_n_n 576 rfl rfl).symm k) = ix2 k q := funext fun ax => Fin.ext (by
    match ax with
    | ⟨0, _⟩ => exact (rhs_dot_0 _ _).trans hk
    | ⟨1, _⟩ => exact rhs_dot_1 _ _)
  rw [el, er]

/-- THE PAYLOAD AT `(p, q)`: the counts times the table, summed over the lanes. -/
theorem pay1_apply (x0 : Vec Ideal S2000x9 .i32) (x1 : Vec Ideal S576x128 .bf16) (p : Fin 2000) (q : Fin 128) :
    k0_pay1 (F := Ideal) x0 (iota .tc S1x576 32 [1] iota_S1x576_d1_w32) (k0_pay2 x0) (k0_pay3 x0) x1 (ix2 p q)
      = ∑ k : Fin 576, cnt x0 p k * x1 (ix2 k q) := by
  unfold k0_pay1
  rw [truncf_apply, shapeCast_self, matmul_apply0]
  refine Finset.sum_congr rfl fun k _ => ?_
  congr 1
  simp only [addf_apply, truncf_apply]
  rw [pay2_apply, pay3_apply, plane_apply x0 5 320#32 slices_S2000x9_o0_5_S2000x1 5 rfl p k, plane_apply x0 6 384#32 slices_S2000x9_o0_6_S2000x1 6 rfl p k,
    plane_apply x0 7 448#32 slices_S2000x9_o0_7_S2000x1 7 rfl p k, plane_apply x0 8 512#32 slices_S2000x9_o0_8_S2000x1 8 rfl p k]
  rfl

/-! ## From the blocks to the array -/

/-- A sum over nine terms, added up from the left onto zero. -/
theorem sum9 (g : Fin 9 → EReal) : ∑ f, g f = ((((((((0 + g 0) + g 1) + g 2) + g 3) + g 4) + g 5) + g 6) + g 7) + g 8 := by
  rw [Fin.sum_univ_castSucc, Fin.sum_univ_eight, zero_add]
  rfl

/-- The body's count is the number of features whose offset index is the lane, the offsets being the words `64 f`. -/
theorem cnt_eq (x0 : S2000x9.Idx → BitVec 32) (X : S100000x9.Idx → BitVec 32) (p : Fin 2000) (n : Fin 100000) (k : Fin 576)
    (h : ∀ f : Fin 9, x0 (ix2 p f) = X (ix2 n f)) :
    cnt x0 p k = ∑ f : Fin 9, if X (ix2 n f) + BitVec.ofNat 32 (64 * f.val) = BitVec.ofNat 32 k.val then (1 : EReal) else 0 := by
  rw [sum9]
  unfold cnt ind
  simp only [h]
  rfl

/-- The payload of a block whose rows are rows of `X` and whose table is `T` is the closed form at the row. -/
theorem block_eq (X : S100000x9.Idx → BitVec 32) (T : S576x128.Idx → EReal) (x0 : Vec Ideal S2000x9 .i32) (x1 : Vec Ideal S576x128 .bf16)
    (p : Fin 2000) (q : Fin 128) (n : Fin 100000)
    (h0 : ∀ f : Fin 9, x0 (ix2 p f) = X (ix2 n f)) (h1 : ∀ k : Fin 576, x1 (ix2 k q) = T (ix2 k q)) :
    k0_pay1 (F := Ideal) x0 (iota .tc S1x576 32 [1] iota_S1x576_d1_w32) (k0_pay2 x0) (k0_pay3 x0) x1 (ix2 p q) = Cert.Bridge.G0 X T (ix2 n q) := by
  rw [pay1_apply]
  unfold Cert.Bridge.G0
  refine Finset.sum_congr rfl fun k _ => ?_
  rw [cnt_eq x0 X p n k h0, h1]

theorem hz : (![0, 0] : Fin 2 → Nat) = fun _ => 0 := funext fun a => by fin_cases a <;> rfl

/-- The printed index maps, decided over the grid: the row blocks of the features and of the output move together, one per point;
    the table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `2000 t … 2000 t + 1999` of the feature array. -/
theorem iblk0_0_apply (c : Dev nD) (t : Fin cfg0.N) (p : Fin 2000) (f : Fin 9) (n : Fin 100000) (hn : n.val = t.val * 2000 + p.val) :
    (iblk0 V c 0 t : Vec Ideal S2000x9 .i32) (ix2 p f) = (V c main_arg0 : S100000x9.Idx → BitVec 32) (ix2 n f) := by
  obtain ⟨e0, e1, e2, e3, e4, e5⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = n.val; omega
  | ⟨1, _⟩ => show win0_0.index t (1 : Fin 2) * 9 + 1 * f.val = f.val; omega

/-- The table window's block at every point is the whole table. -/
theorem iblk0_1_apply (c : Dev nD) (t : Fin cfg0.N) (k : Fin 576) (q : Fin 128) :
    (iblk0 V c 1 t : Vec Ideal S576x128 .bf16) (ix2 k q) = (V c main_v5 : S576x128.Idx → EReal) (ix2 k q) := by
  obtain ⟨e0, e1, e2, e3, e4, e5⟩ := idx_facts t
  unfold iblk0
  rw [View.read_apply]
  show V c main_v5 _ = V c main_v5 _
  congr 1
  funext a
  apply Fin.ext
  match a with
  | ⟨0, _⟩ => show win0_1.index t (0 : Fin 2) * 576 + 1 * k.val = k.val; omega
  | ⟨1, _⟩ => show win0_1.index t (1 : Fin 2) * 128 + 1 * q.val = q.val; omega

/-- WHAT POINT `t` WRITES BACK is block `t` of the closed form of the arrays as the region finds them. -/
theorem flushed_eq (c : Dev nD) (t : Fin cfg0.N) :
    (dat0 (F := Ideal) V c).flushed 2 t = ((cfg0.win 2).blk t).view.read (Elt Ideal) (Cert.Bridge.G0 (V c main_arg0) (V c main_v5)) := by
  show (cfg0.win 2).cut (grid0.coords t) ((dat0 V c).after 2 t) = _
  rw [after0_2]
  unfold out0_2
  rw [View.canon_unit_zero hz]
  simp only [View.ld_unit_zero (S := S2000x9) hz, View.ld_unit_zero (S := S576x128) hz]
  obtain ⟨e0, e1, e2, e3, e4, e5⟩ := idx_facts t
  have hN : cfg0.N = 50 := N_0
  have ht : t.val < 50 := hN ▸ t.isLt
  funext j
  obtain ⟨p, q, rfl⟩ : ∃ (p : Fin 2000) (q : Fin 128), j = ix2 p q := ⟨j 0, j 1, eq_ix2 j⟩
  rw [View.read_apply]
  have hemb : ((cfg0.win 2).blk t).view.emb (ix2 p q) = (ix2 (⟨t.val * 2000 + p.val, by omega⟩ : Fin 100000) q : S100000x128.Idx) := by
    funext a
    apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  rw [hemb]
  exact block_eq _ _ (iblk0 V c 0 t) (iblk0 V c 1 t) p q _ (fun f => iblk0_0_apply V c t p f _ rfl) (fun k => iblk0_1_apply V c t k q)

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v6).slice (win0_2.rect t)).set ↔ _
  rw [View.set_slice_whole, Rect.mem_set_unit]
  exact Iff.rfl

/-- Row `r` of the array is in the block of point `r / 2000`, which writes back. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨e0, e1, e2, e3, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

/-- The array region 0 leaves in its output window 2, whatever the entry contents `V`. -/
theorem final0 (c : Dev nD) :
    (dat0 (F := Ideal) V c).arrAt 2 cfg0.N = Cert.Bridge.G0 (V c main_arg0) (V c main_v5) := by
  exact (dat0 V c).arrAt_eq_of_cover 2 _ (fun t _ => flushed_eq V c t) cover

end Cert.KernelIdeal.Region0

end
-- ==== Proof.Region1Value.lean ====
/-
  Region 1 (bias, ReLU, second linear map): each grid point writes a 2000-row block of max (a + b) 0 times W; the fifty blocks tile the array.
-/
import proofs.«414741_j70111046140326_3_alg».proof.Proof.Gen.KernelIdeal.Frame
import proofs.«414741_j70111046140326_3_alg».proof.Proof.SpecG
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

/-! ## The body's stored value at an index -/

/-- The four operand coordinates of the matrix product, axis by axis: the left operand is read at (row, contracted),
    the right one at (contracted, column). -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix product into a zero accumulator at an index: the sum over the contracted axis. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul dot_S2000x128_S128x128_S2000x128_1_0_0_1_n_n none l r (constant (F := Ideal) S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The body's stored value at row `p`, column `q` of the block. -/
theorem pay_apply (x0 : Vec Ideal S2000x128 .f32) (x1 : Vec Ideal S1x128 .f32) (x2 : Vec Ideal S128x128 .f32) (p : Fin 2000) (q : Fin 128) :
    k1_pay1 x0 x1 x2 (ix2 p q) = ∑ k : Fin 128, max (x0 (ix2 p k) + x1 (ix2 0 k)) 0 * x2 (ix2 k q) := by
  unfold k1_pay1
  rw [truncf_apply, mm_apply]
  refine Finset.sum_congr rfl fun k _ => ?_
  rw [truncf_apply, truncf_apply, maximumf_apply, addf_apply, broadcast_apply, shapeCast_self, shapeCast_self, broadcastTo_1b_ab_apply]
  show max _ (Ideal.ofBits .f32 0x00000000#32) * _ = _
  rw [Ideal.ofBits_zero_f32]

variable (V : (c : Dev nD) → (b : Ref sig .tc) → Buf (Elt Ideal) ((c : Thread nD τ).loc b))

/-! ## From the fifty blocks to the array -/

/-- The two zero offsets of a whole-block access, as a constant function. -/
theorem hz : (![0, 0] : Fin 2 → Nat) = fun _ => 0 := funext fun a => by fin_cases a <;> rfl

/-- The block index maps over the fifty grid points: windows 0 and 3 move down the rows with the point, windows 1 and 2 stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 50 :=
  (by decide +kernel : ∀ t : Fin grid1.N, _)

/-- Row `p` of window 0's block at point `t` is row `2000 t + p` of its array. -/
theorem blkA (c : Dev nD) (t : Fin cfg1.N) (p : Fin 2000) (k : Fin 128) (n : Fin 100000) (hn : n.val = t.val * 2000 + p.val) :
    (iblk1 V c 0 t : Vec Ideal S2000x128 .f32) (ix2 p k) = (V c main_v66 : S100000x128.Idx → EReal) (ix2 n k) := by
  obtain ⟨e0, e1, -⟩ := idx_facts t
  unfold iblk1
  rw [View.read_apply]
  show V c main_v66 _ = V c main_v66 _
  congr 1
  funext a
  apply Fin.ext
  match a with
  | ⟨0, _⟩ => show win1_0.index t 0 * 2000 + 1 * p.val = n.val; rw [e0, hn]; omega
  | ⟨1, _⟩ => show win1_0.index t 1 * 128 + 1 * k.val = k.val; rw [e1]; omega

/-- Window 1's block at every point is its whole array. -/
theorem blkB (c : Dev nD) (t : Fin cfg1.N) (k : Fin 128) :
    (iblk1 V c 1 t : Vec Ideal S1x128 .f32) (ix2 0 k) = (V c main_v67 : S1x128.Idx → EReal) (ix2 0 k) := by
  obtain ⟨-, -, e0, e1, -⟩ := idx_facts t
  unfold iblk1
  rw [View.read_apply]
  show V c main_v67 _ = V c main_v67 _
  congr 1
  funext a
  apply Fin.ext
  match a with
  | ⟨0, _⟩ => show win1_1.index t 0 * 1 + 1 * 0 = 0; rw [e0]
  | ⟨1, _⟩ => show win1_1.index t 1 * 128 + 1 * k.val = k.val; rw [e1]; omega

/-- Window 2's block at every point is its whole array. -/
theorem blkW (c : Dev nD) (t : Fin cfg1.N) (k q : Fin 128) :
    (iblk1 V c 2 t : Vec Ideal S128x128 .f32) (ix2 k q) = (V c main_arg7 : S128x128.Idx → EReal) (ix2 k q) := by
  obtain ⟨-, -, -, -, e0, e1, -⟩ := idx_facts t
  unfold iblk1
  rw [View.read_apply]
  show V c main_arg7 _ = V c main_arg7 _
  congr 1
  funext a
  apply Fin.ext
  match a with
  | ⟨0, _⟩ => show win1_2.index t 0 * 128 + 1 * k.val = k.val; rw [e0]; omega
  | ⟨1, _⟩ => show win1_2.index t 1 * 128 + 1 * q.val = q.val; rw [e1]; omega

/-- Row `p` of the output window's block at point `t` sits at row `2000 t + p` of the output array. -/
theorem out_emb (t : Fin cfg1.N) (p : Fin 2000) (q : Fin 128) (n : Fin 100000) (hn : n.val = t.val * 2000 + p.val) :
    ((cfg1.win 3).blk t).view.emb (ix2 p q) = (ix2 n q : S100000x128.Idx) := by
  obtain ⟨-, -, -, -, -, -, e0, e1, -⟩ := idx_facts t
  funext a
  apply Fin.ext
  match a with
  | ⟨0, _⟩ => show win1_3.index t 0 * 2000 + 1 * p.val = n.val; rw [e0, hn]; omega
  | ⟨1, _⟩ => show win1_3.index t 1 * 128 + 1 * q.val = q.val; rw [e1]; omega

/-- What point `t` writes back is block `t` of the closed form of the region's input arrays. -/
theorem flushed_eq (c : Dev nD) (t : Fin cfg1.N) :
    (dat1 (F := Ideal) V c).flushed 3 t = ((cfg1.win 3).blk t).view.read (Elt Ideal) (Cert.Bridge.G1 (V c main_v66) (V c main_v67) (V c main_arg7)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have hlt : t.val * 2000 + p.val < 100000 := by
    have := (idx_facts t).2.2.2.2.2.2.2.2
    omega
  show k1_pay1 (iblk1 V c 0 t) (iblk1 V c 1 t) (iblk1 V c 2 t) (ix2 p q)
    = Cert.Bridge.G1 (V c main_v66) (V c main_v67) (V c main_arg7) (((cfg1.win 3).blk t).view.emb (ix2 p q))
  rw [out_emb t p q ⟨t.val * 2000 + p.val, hlt⟩ rfl]
  refine (pay_apply (iblk1 V c 0 t) (iblk1 V c 1 t) (iblk1 V c 2 t) p q).trans ?_
  unfold Cert.Bridge.G1
  refine Finset.sum_congr rfl fun k _ => ?_
  rw [blkA V c t p k ⟨t.val * 2000 + p.val, hlt⟩ rfl, blkB V c t k, blkW V c t k q]

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v68).slice (win1_3.rect t)).set ↔ _
  rw [View.set_slice_whole, Rect.mem_set_unit]
  exact Iff.rfl

/-- Row `n` of the output array is in the block of point `n / 2000`. -/
theorem cover (i : S100000x128.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 128 := (i 1).isLt
  have ht : (i 0).val / 2000 < cfg1.N := by rw [hN]; omega
  obtain ⟨-, -, -, -, -, -, e0, e1, -⟩ := idx_facts ⟨(i 0).val / 2000, ht⟩
  refine ⟨⟨(i 0).val / 2000, ht⟩, flush1_3 _, ?_⟩
  rw [mem_blk]
  intro a
  match a with
  | ⟨0, _⟩ =>
    show win1_3.index ⟨(i 0).val / 2000, ht⟩ 0 * 2000 ≤ (i 0).val ∧ (i 0).val < win1_3.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win1_3.index ⟨(i 0).val / 2000, ht⟩ 1 * 128 ≤ (i 1).val ∧ (i 1).val < win1_3.index ⟨(i 0).val / 2000, ht⟩ 1 * 128 + 128
    rw [e1]
    omega

/-- The array region 1 leaves in its output window 3, whatever the entry contents `V`. -/
theorem final1 (c : Dev nD) :
    (dat1 (F := Ideal) V c).arrAt 3 cfg1.N = Cert.Bridge.G1 (V c main_v66) (V c main_v67) (V c main_arg7) :=
  (dat1 V c).arrAt_eq_of_cover 3 _ (fun t _ => flushed_eq V c t) cover

end Cert.KernelIdeal.Region1

end
-- ==== Proof.Region2Value.lean ====
/-
  Region 2 (bias, linear head, logistic): each grid point writes a 2000-row block of the logistic of (a + b) times the head column plus its bias; the fifty blocks tile the array.
-/
import proofs.«414741_j70111046140326_3_alg».proof.Proof.Gen.KernelIdeal.Frame
import proofs.«414741_j70111046140326_3_alg».proof.Proof.SpecG
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

/-! ## The body's stored value at an index -/

/-- The four operand coordinates of the matrix product, axis by axis: the left operand is read at (row, contracted),
    the right one at (contracted, column). -/
theorem lhs_mm_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhs_mm_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem rhs_mm_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem rhs_mm_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- The matrix product into a zero accumulator at an index: the sum over the contracted axis. -/
theorem mm_apply (l : FVec Ideal S2000x128 .bf16) (r : FVec Ideal S128x1 .bf16) (p : Fin 2000) (q : Fin 1) :
    matmul dot_S2000x128_S128x1_S2000x1_1_0_0_1_n_n none l r (constant (F := Ideal) S2000x1 .f32 0x00000000#32) (ix2 p q)
      = ∑ k : Fin 128, l (ix2 p k) * r (ix2 k q) := by
  show FloatOps.matmul dot_S2000x128_S128x1_S2000x1_1_0_0_1_n_n none l r (constant (F := Ideal) S2000x1 .f32 0x00000000#32) (ix2 p q) = _
  rw [Ideal.matmul_constant_zero_apply, ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 p q) ((ValueIdx.contrEquiv1 dot_S2000x128_S128x1_S2000x1_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x1_S2000x1_1_0_0_1_n_n.rhsIdx (ix2 p q) ((ValueIdx.contrEquiv1 dot_S2000x128_S128x1_S2000x1_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The logistic of a vector at an index is the logistic of the element. -/
theorem logistic_apply {s : Shape} {φ : FTy} (a : FVec Ideal s φ) (i : s.Idx) : logistic a i = Ideal.logistic (a i) := rfl

/-- The body's stored value at row `p` of the block's one column. -/
theorem pay_apply (x0 : Vec Ideal S2000x128 .f32) (x1 : Vec Ideal S1x128 .f32) (x2 : Vec Ideal S128x1 .f32) (x3 : Vec Ideal S1x1 .f32) (p : Fin 2000) (q : Fin 1) :
    k2_pay1 x0 x1 x2 x3 (ix2 p q)
      = Ideal.logistic ((∑ k : Fin 128, (x0 (ix2 p k) + x1 (ix2 0 k)) * x2 (ix2 k q)) + x3 (ix2 0 0)) := by
  obtain rfl : q = 0 := Subsingleton.elim _ _
  unfold k2_pay1
  simp only [shapeCast_self]
  rw [logistic_apply, addf_apply, mm_apply, broadcastTo_1b_ab_apply]
  congr 2
  refine Finset.sum_congr rfl fun k _ => ?_
  rw [truncf_apply, truncf_apply, addf_apply, broadcastTo_1b_ab_apply]

variable (V : (c : Dev nD) → (b : Ref sig .tc) → Buf (Elt Ideal) ((c : Thread nD τ).loc b))

/-! ## From the fifty blocks to the array -/

/-- The two zero offsets of a whole-block access, as a constant function. -/
theorem hz : (![0, 0] : Fin 2 → Nat) = fun _ => 0 := funext fun a => by fin_cases a <;> rfl

/-- The block index maps over the fifty grid points: windows 0 and 4 move down the rows with the point, windows 1, 2 and 3 stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 50 :=
  (by decide +kernel : ∀ t : Fin grid2.N, _)

/-- Row `p` of window 0's block at point `t` is row `2000 t + p` of its array. -/
theorem blkA (c : Dev nD) (t : Fin cfg2.N) (p : Fin 2000) (k : Fin 128) (n : Fin 100000) (hn : n.val = t.val * 2000 + p.val) :
    (iblk2 V c 0 t : Vec Ideal S2000x128 .f32) (ix2 p k) = (V c main_v82 : S100000x128.Idx → EReal) (ix2 n k) := by
  obtain ⟨e0, e1, -⟩ := idx_facts t
  unfold iblk2
  rw [View.read_apply]
  show V c main_v82 _ = V c main_v82 _
  congr 1
  funext a
  apply Fin.ext
  match a with
  | ⟨0, _⟩ => show win2_0.index t 0 * 2000 + 1 * p.val = n.val; rw [e0, hn]; omega
  | ⟨1, _⟩ => show win2_0.index t 1 * 128 + 1 * k.val = k.val; rw [e1]; omega

/-- Window 1's block at every point is its whole array. -/
theorem blkB (c : Dev nD) (t : Fin cfg2.N) (k : Fin 128) :
    (iblk2 V c 1 t : Vec Ideal S1x128 .f32) (ix2 0 k) = (V c main_v83 : S1x128.Idx → EReal) (ix2 0 k) := by
  obtain ⟨-, -, e0, e1, -⟩ := idx_facts t
  unfold iblk2
  rw [View.read_apply]
  show V c main_v83 _ = V c main_v83 _
  congr 1
  funext a
  apply Fin.ext
  match a with
  | ⟨0, _⟩ => show win2_1.index t 0 * 1 + 1 * 0 = 0; rw [e0]
  | ⟨1, _⟩ => show win2_1.index t 1 * 128 + 1 * k.val = k.val; rw [e1]; omega

/-- Window 2's block at every point is its whole array. -/
theorem blkW (c : Dev nD) (t : Fin cfg2.N) (k : Fin 128) :
    (iblk2 V c 2 t : Vec Ideal S128x1 .f32) (ix2 k 0) = (V c main_arg9 : S128x1.Idx → EReal) (ix2 k 0) := by
  obtain ⟨-, -, -, -, e0, e1, -⟩ := idx_facts t
  unfold iblk2
  rw [View.read_apply]
  show V c main_arg9 _ = V c main_arg9 _
  congr 1
  funext a
  apply Fin.ext
  match a with
  | ⟨0, _⟩ => show win2_2.index t 0 * 128 + 1 * k.val = k.val; rw [e0]; omega
  | ⟨1, _⟩ => show win2_2.index t 1 * 1 + 1 * 0 = 0; rw [e1]

/-- Window 3's block at every point is its whole array, one entry. -/
theorem blkL (c : Dev nD) (t : Fin cfg2.N) :
    (iblk2 V c 3 t : Vec Ideal S1x1 .f32) (ix2 0 0) = (V c main_v84 : S1x1.Idx → EReal) (ix2 0 0) := by
  obtain ⟨-, -, -, -, -, -, e0, e1, -⟩ := idx_facts t
  unfold iblk2
  rw [View.read_apply]
  show V c main_v84 _ = V c main_v84 _
  congr 1
  funext a
  apply Fin.ext
  match a with
  | ⟨0, _⟩ => show win2_3.index t 0 * 1 + 1 * 0 = 0; rw [e0]
  | ⟨1, _⟩ => show win2_3.index t 1 * 1 + 1 * 0 = 0; rw [e1]

/-- Row `p` of the output window's block at point `t` sits at row `2000 t + p` of the output array. -/
theorem out_emb (t : Fin cfg2.N) (p : Fin 2000) (n : Fin 100000) (hn : n.val = t.val * 2000 + p.val) :
    ((cfg2.win 4).blk t).view.emb (ix2 p (0 : Fin 1)) = (ix2 n (0 : Fin 1) : S100000x1.Idx) := by
  obtain ⟨-, -, -, -, -, -, -, -, e0, e1, -⟩ := idx_facts t
  funext a
  apply Fin.ext
  match a with
  | ⟨0, _⟩ => show win2_4.index t 0 * 2000 + 1 * p.val = n.val; rw [e0, hn]; omega
  | ⟨1, _⟩ => show win2_4.index t 1 * 1 + 1 * 0 = 0; rw [e1]

/-- What point `t` writes back is block `t` of the closed form of the region's input arrays. -/
theorem flushed_eq (c : Dev nD) (t : Fin cfg2.N) :
    (dat2 (F := Ideal) V c).flushed 4 t = ((cfg2.win 4).blk t).view.read (Elt Ideal) (Cert.Bridge.G2 (V c main_v82) (V c main_v83) (V c main_arg9) (V c main_v84)) := by
  show (cfg2.win 4).cut (grid2.coords t) ((dat2 V c).after 4 t) = _
  rw [after2_4]
  unfold out2_4
  rw [View.canon_unit_zero hz]
  simp only [View.ld_unit_zero (S := S2000x128) hz, View.ld_unit_zero (S := S1x128) hz, View.ld_unit_zero (S := S128x1) hz, View.ld_unit_zero (S := S1x1) hz]
  funext j
  obtain ⟨p, q, rfl⟩ : ∃ (p : Fin 2000) (q : Fin 1), j = ix2 p q := ⟨j 0, j 1, eq_ix2 j⟩
  obtain rfl : q = 0 := Subsingleton.elim _ _
  have hlt : t.val * 2000 + p.val < 100000 := by
    have := (idx_facts t).2.2.2.2.2.2.2.2.2.2
    omega
  obtain ⟨n, hn⟩ : ∃ n : Fin 100000, n.val = t.val * 2000 + p.val := ⟨⟨_, hlt⟩, rfl⟩
  show k2_pay1 (iblk2 V c 0 t) (iblk2 V c 1 t) (iblk2 V c 2 t) (iblk2 V c 3 t) (ix2 p (0 : Fin 1))
    = Cert.Bridge.G2 (V c main_v82) (V c main_v83) (V c main_arg9) (V c main_v84) (((cfg2.win 4).blk t).view.emb (ix2 p (0 : Fin 1)))
  rw [out_emb t p n hn]
  refine (pay_apply (iblk2 V c 0 t) (iblk2 V c 1 t) (iblk2 V c 2 t) (iblk2 V c 3 t) p 0).trans ?_
  rw [blkL V c t]
  unfold Cert.Bridge.G2
  refine congrArg (fun s : EReal => Ideal.logistic (s + (V c main_v84 : S1x1.Idx → EReal) (ix2 0 0))) ?_
  refine Finset.sum_congr rfl fun k _ => ?_
  rw [blkA V c t p k n hn, blkB V c t k, blkW V c t k]

/-- An index of the output array is in point `t`'s block iff each coordinate is in the block's range on its axis. -/
theorem mem_blk (t : Fin cfg2.N) (i : S100000x1.Idx) :
    i ∈ ((cfg2.win 4).blk t).view.set ↔ ∀ a : Fin 2, win2_4.index t a * S2000x1.size a ≤ (i a).val ∧ (i a).val < win2_4.index t a * S2000x1.size a + S2000x1.size a := by
  show i ∈ ((View.whole main_v85).slice (win2_4.rect t)).set ↔ _
  rw [View.set_slice_whole, Rect.mem_set_unit]
  exact Iff.rfl

/-- Row `n` of the output array is in the block of point `n / 2000`. -/
theorem cover (i : S100000x1.Idx) :
    ∃ t : Fin cfg2.N, (cfg2.win 4).flush t = true ∧ i ∈ ((cfg2.win 4).blk t).view.set := by
  have hN : cfg2.N = 50 := N_2
  have hi0 : (i 0).val < 100000 := (i 0).isLt
  have hi1 : (i 1).val < 1 := (i 1).isLt
  have ht : (i 0).val / 2000 < cfg2.N := by rw [hN]; omega
  obtain ⟨-, -, -, -, -, -, -, -, e0, e1, -⟩ := idx_facts ⟨(i 0).val / 2000, ht⟩
  refine ⟨⟨(i 0).val / 2000, ht⟩, flush2_4 _, ?_⟩
  rw [mem_blk]
  intro a
  match a with
  | ⟨0, _⟩ =>
    show win2_4.index ⟨(i 0).val / 2000, ht⟩ 0 * 2000 ≤ (i 0).val ∧ (i 0).val < win2_4.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win2_4.index ⟨(i 0).val / 2000, ht⟩ 1 * 1 ≤ (i 1).val ∧ (i 1).val < win2_4.index ⟨(i 0).val / 2000, ht⟩ 1 * 1 + 1
    rw [e1]
    omega

/-- The array region 2 leaves in its output window 4, whatever the entry contents `V`. -/
theorem final2 (c : Dev nD) :
    (dat2 (F := Ideal) V c).arrAt 4 cfg2.N = Cert.Bridge.G2 (V c main_v82) (V c main_v83) (V c main_arg9) (V c main_v84) :=
  (dat2 V c).arrAt_eq_of_cover 4 _ (fun t _ => flushed_eq V c t) cover

end Cert.KernelIdeal.Region2

end
-- ==== Proof.KernelHost.lean ====
/-
  What the host operations between the regions leave in the buffers each region reads, as functions of the launch
  memory and of the previous region's output array.
-/
import proofs.«414741_j70111046140326_3_alg».proof.Proof.Gen.KernelIdeal.Frame
import proofs.«414741_j70111046140326_3_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.HostVals

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg) (c : Dev nD)

/-! ### The product of the atom table and the first weight matrix, entry by entry -/

section Dot0
/-- The left operand's row is the result's row. -/
theorem lhs_dot0_0 (i : S576x128.Idx) (q : dot_S576x128_S128x128_S576x128_1_0_0_1_n_n.contr.Idx) :
    (dot_S576x128_S128x128_S576x128_1_0_0_1_n_n.lhsIdx i q 0).val = (i 0).val := by
  unfold DotDims.lhsIdx
  rw [dif_neg (show ¬(0 : Fin S576x128.rank) ∈ dot_S576x128_S128x128_S576x128_1_0_0_1_n_n.lhsBatch by decide), dif_pos (show (0 : Fin S576x128.rank) ∈ dot_S576x128_S128x128_S576x128_1_0_0_1_n_n.lhsNonContracting by decide)]
  rfl
/-- The left operand's column is the contracted coordinate. -/
theorem lhs_dot0_1 (i : S576x128.Idx) (q : dot_S576x128_S128x128_S576x128_1_0_0_1_n_n.contr.Idx) :
    (dot_S576x128_S128x128_S576x128_1_0_0_1_n_n.lhsIdx i q 1).val = (q ⟨0, by decide⟩).val :=
  dot_S576x128_S128x128_S576x128_1_0_0_1_n_n.lhsIdx_val_of_single rfl i q
/-- The right operand's row is the contracted coordinate. -/
theorem rhs_dot0_0 (i : S576x128.Idx) (q : dot_S576x128_S128x128_S576x128_1_0_0_1_n_n.contr.Idx) :
    (dot_S576x128_S128x128_S576x128_1_0_0_1_n_n.rhsIdx i q 0).val = (q ⟨0, by decide⟩).val :=
  dot_S576x128_S128x128_S576x128_1_0_0_1_n_n.rhsIdx_val_of_single rfl i q
/-- The right operand's column is the result's column. -/
theorem rhs_dot0_1 (i : S576x128.Idx) (q : dot_S576x128_S128x128_S576x128_1_0_0_1_n_n.contr.Idx) :
    (dot_S576x128_S128x128_S576x128_1_0_0_1_n_n.rhsIdx i q 1).val = (i 1).val := by
  unfold DotDims.rhsIdx
  rw [dif_neg (show ¬(1 : Fin S128x128.rank) ∈ dot_S576x128_S128x128_S576x128_1_0_0_1_n_n.rhsBatch by decide), dif_pos (show (1 : Fin S128x128.rank) ∈ dot_S576x128_S128x128_S576x128_1_0_0_1_n_n.rhsNonContracting by decide)]
  rfl

/-- Over the extended reals the host's matrix product at `(k, j)` is the sum over the contracted axis. -/
theorem dot0_apply (x3 : FVec Ideal S576x128 .f32) (x5 : FVec Ideal S128x128 .f32) (k : Fin 576) (j : Fin 128) :
    Host.dotGeneral (F := Ideal) dot_S576x128_S128x128_S576x128_1_0_0_1_n_n none x3 x5 (ix2 k j) = ∑ d : Fin 128, x3 (ix2 k d) * x5 (ix2 d j) := by
  simp only [Host.dotGeneral]
  rw [Ideal.dotGeneral_apply, ← Equiv.sum_comp (ValueIdx.contrEquiv1 dot_S576x128_S128x128_S576x128_1_0_0_1_n_n 128 rfl rfl).symm]
  refine Finset.sum_congr rfl fun d _ => ?_
  have hd := ValueIdx.contrEquiv1_symm_val dot_S576x128_S128x128_S576x128_1_0_0_1_n_n 128 rfl rfl d
  have el : dot_S576x128_S128x128_S576x128_1_0_0_1_n_n.lhsIdx (ix2 k j) ((ValueIdx.contrEquiv1 dot_S576x128_S128x128_S576x128_1_0_0_1_n_n 128 rfl rfl).symm d) = ix2 k d := funext fun a => Fin.ext (by
    match a with
    | ⟨0, _⟩ => exact lhs_dot0_0 _ _
    | ⟨1, _⟩ => exact (lhs_dot0_1 _ _).trans hd)
  have er : dot_S576x128_S128x128_S576x128_1_0_0_1_n_n.rhsIdx (ix2 k j) ((ValueIdx.contrEquiv1 dot_S576x128_S128x128_S576x128_1_0_0_1_n_n 128 rfl rfl).symm d) = ix2 d j := funext fun a => Fin.ext (by
    match a with
    | ⟨0, _⟩ => exact (rhs_dot0_0 _ _).trans hd
    | ⟨1, _⟩ => exact rhs_dot0_1 _ _)
  rw [el, er]
end Dot0

/-! ### The host stretches, each over an arbitrary entry valuation

Each stretch of host operations is the reference program's own chain of operations on other buffers: from entry
contents that hold the reference's stages at the buffers a stretch reads, it leaves the reference's next stages at
the buffers it writes. Stated at any float instance; the entry contents enter as hypotheses. -/

section Chain
open Cert.ReferenceIdeal.Read

variable {F : FTy → Type} [FloatOps F] (V : Valuation τ sig (Elt F))
variable (x1 : (⟨Cert.ReferenceIdeal.S2x600000, .i32⟩ : BufTy).Contents (Elt F))
  (x2 : (⟨Cert.ReferenceIdeal.S600000x3, .i32⟩ : BufTy).Contents (Elt F))
  (x4 : (⟨Cert.ReferenceIdeal.S48x1, .f32⟩ : BufTy).Contents (Elt F))

/-- The first stretch: the source row of the edge list, as a vector. -/
theorem ops0_v1 (h1 : V (Proc.devRef .tc main_arg1) = x1) :
    StableHlo.after hostOps0 V (Proc.devRef .tc main_v1) = val_main_v30 (F := F) x1 := by
  after_results_simp
  rw [h1]
  rfl
/-- The first stretch: the target row of the edge list, as a vector. -/
theorem ops0_v3 (h1 : V (Proc.devRef .tc main_arg1) = x1) :
    StableHlo.after hostOps0 V (Proc.devRef .tc main_v3) = val_main_v32 (F := F) x1 := by
  after_results_simp
  rw [h1]
  rfl

/-- Two arrays joined along an axis, as a function of the two pieces. -/
def join2 {α : Type} (t A B : Shape) (ax : Fin t.rank) (h : Shape.Concatenates [A, B] t ax) (a : A.Idx → α) (b : B.Idx → α) :
    t.Idx → α :=
  concatenate t ax [⟨A, a⟩, ⟨B, b⟩] h
theorem join2_def {α : Type} (t A B : Shape) (ax : Fin t.rank) (h : Shape.Concatenates [A, B] t ax) (a : A.Idx → α) (b : B.Idx → α) :
    concatenate t ax [⟨A, a⟩, ⟨B, b⟩] h = join2 t A B ax h a b := rfl

/-- The second stretch: the source indices with the self loops appended. -/
theorem ops1_v23 (h1 : V (Proc.devRef .tc main_v1) = val_main_v30 (F := F) x1) :
    StableHlo.after hostOps1 V (Proc.devRef .tc main_v23) = val_main_v35 (F := F) x1 := by
  after_results_simp
  simp only [join2_def]
  after_results_simp
  rw [h1]
  rfl
/-- The second stretch: the target indices with the self loops appended. -/
theorem ops1_v24 (h3 : V (Proc.devRef .tc main_v3) = val_main_v32 (F := F) x1) :
    StableHlo.after hostOps1 V (Proc.devRef .tc main_v24) = val_main_v36 (F := F) x1 := by
  after_results_simp
  simp only [join2_def]
  after_results_simp
  rw [h3]
  rfl
/-- The second stretch: the edge weights (three bond-table entries summed) with weight one on the self loops. -/
theorem ops1_v26 (h2 : V (Proc.devRef .tc main_arg2) = x2) (h4 : V (Proc.devRef .tc main_arg4) = x4) :
    StableHlo.after hostOps1 V (Proc.devRef .tc main_v26) = val_main_v38 (F := F) x2 x4 := by
  after_results_simp
  simp only [join2_def]
  after_results_simp
  rw [h2, h4]
  rfl
/-- The second stretch: the weighted degree of every node. -/
theorem ops1_v29 (h3 : V (Proc.devRef .tc main_v3) = val_main_v32 (F := F) x1)
    (h2 : V (Proc.devRef .tc main_arg2) = x2) (h4 : V (Proc.devRef .tc main_arg4) = x4) :
    StableHlo.after hostOps1 V (Proc.devRef .tc main_v29) = val_main_v41 (F := F) x1 x2 x4 := by
  after_results_simp
  simp only [join2_def]
  after_results_simp
  rw [h3, h2, h4]
  rfl
/-- The second stretch: where the degree is positive (the mask of the inverse square root). -/
theorem ops1_v31 (h3 : V (Proc.devRef .tc main_v3) = val_main_v32 (F := F) x1)
    (h2 : V (Proc.devRef .tc main_arg2) = x2) (h4 : V (Proc.devRef .tc main_arg4) = x4) :
    StableHlo.after hostOps1 V (Proc.devRef .tc main_v31) = val_main_v43 (F := F) x1 x2 x4 := by
  after_results_simp
  simp only [join2_def]
  after_results_simp
  rw [h3, h2, h4]
  rfl
/-- The second stretch: where the degree is positive (the mask of the guarded degree). -/
theorem ops1_v33 (h3 : V (Proc.devRef .tc main_v3) = val_main_v32 (F := F) x1)
    (h2 : V (Proc.devRef .tc main_arg2) = x2) (h4 : V (Proc.devRef .tc main_arg4) = x4) :
    StableHlo.after hostOps1 V (Proc.devRef .tc main_v33) = val_main_v45 (F := F) x1 x2 x4 := by
  after_results_simp
  simp only [join2_def]
  after_results_simp
  rw [h3, h2, h4]
  rfl
/-- The second stretch: the constant one. -/
theorem ops1_cst6 : StableHlo.after hostOps1 V (Proc.devRef .tc main_cst_6) = val_main_cst_10 (F := F) := by
  after_results_simp
  rfl

/-- The third stretch: the degree, one where it is not positive. -/
theorem ops11_v34 (h33 : V (Proc.devRef .tc main_v33) = val_main_v45 (F := F) x1 x2 x4)
    (h29 : V (Proc.devRef .tc main_v29) = val_main_v41 (F := F) x1 x2 x4)
    (hc : V (Proc.devRef .tc main_cst_6) = val_main_cst_10 (F := F)) :
    StableHlo.after hostOps1_1 V (Proc.devRef .tc main_v34) = val_main_v46 (F := F) x1 x2 x4 := by
  after_results_simp
  rw [h33, h29, hc]
  rfl

/-- The fourth stretch: its inverse square root. -/
theorem ops12_v35 (h34 : V (Proc.devRef .tc main_v34) = val_main_v46 (F := F) x1 x2 x4) :
    StableHlo.after hostOps1_2 V (Proc.devRef .tc main_v35) = val_main_v47 (F := F) x1 x2 x4 := by
  after_results_simp
  rw [h34]
  rfl
/-- The fourth stretch: the constant zero. -/
theorem ops12_cst7 : StableHlo.after hostOps1_2 V (Proc.devRef .tc main_cst_7) = val_main_cst_11 (F := F) := by
  after_results_simp
  rfl

/-- The fifth stretch: the inverse square root of the degree, zero where the degree is not positive. -/
theorem ops13_v36 (h31 : V (Proc.devRef .tc main_v31) = val_main_v43 (F := F) x1 x2 x4)
    (h35 : V (Proc.devRef .tc main_v35) = val_main_v47 (F := F) x1 x2 x4)
    (hc : V (Proc.devRef .tc main_cst_7) = val_main_cst_11 (F := F)) :
    StableHlo.after hostOps1_3 V (Proc.devRef .tc main_v36) = val_main_v48 (F := F) x1 x2 x4 := by
  after_results_simp
  rw [h31, h35, hc]
  rfl

/-- The sixth stretch: the symmetric normalisation of every edge. -/
theorem ops14_v52 (h23 : V (Proc.devRef .tc main_v23) = val_main_v35 (F := F) x1)
    (h24 : V (Proc.devRef .tc main_v24) = val_main_v36 (F := F) x1)
    (h26 : V (Proc.devRef .tc main_v26) = val_main_v38 (F := F) x2 x4)
    (h36 : V (Proc.devRef .tc main_v36) = val_main_v48 (F := F) x1 x2 x4) :
    StableHlo.after hostOps1_4 V (Proc.devRef .tc main_v52) = val_main_v64 (F := F) x1 x2 x4 := by
  after_results_simp
  rw [h23, h24, h26, h36]
  rfl

/-- The aggregation as the kernel program spells it: the node features arrive narrowed and are widened after the
    gather; the indices, the normalisation and the zero array are the reference's. -/
def aggK (a : (⟨Cert.ReferenceIdeal.S100000x128, .bf16⟩ : BufTy).Contents (Elt F)) :
    (⟨Cert.ReferenceIdeal.S100000x128, .f32⟩ : BufTy).Contents (Elt F) :=
  Host.scatterAdd Cert.ReferenceIdeal.scatter_S100000x128_S700000x1_S700000x128_1_0_0_1 (val_main_v75 (F := F)) (val_main_v76 (F := F) x1)
    (mulf (((extf .f32 · bitsLt_bf16_f32) : (⟨Cert.ReferenceIdeal.S700000x128, .bf16⟩ : BufTy).Contents (Elt F) → (⟨Cert.ReferenceIdeal.S700000x128, .f32⟩ : BufTy).Contents (Elt F))
        (Host.gather Cert.ReferenceIdeal.gather_S100000x128_S700000x1_S700000x128_1_0_n_n_0_1_1128 a (val_main_v70 (F := F) x1)))
      (val_main_v73 (F := F) x1 x2 x4))

/-- The sixth stretch: the aggregation of region 0's output. -/
theorem ops14_v66 (a : (⟨Cert.ReferenceIdeal.S100000x128, .bf16⟩ : BufTy).Contents (Elt F))
    (h6 : V (Proc.devRef .tc main_v6) = a)
    (h23 : V (Proc.devRef .tc main_v23) = val_main_v35 (F := F) x1)
    (h24 : V (Proc.devRef .tc main_v24) = val_main_v36 (F := F) x1)
    (h26 : V (Proc.devRef .tc main_v26) = val_main_v38 (F := F) x2 x4)
    (h36 : V (Proc.devRef .tc main_v36) = val_main_v48 (F := F) x1 x2 x4) :
    StableHlo.after hostOps1_4 V (Proc.devRef .tc main_v66) = aggK x1 x2 x4 a := by
  after_results_simp
  rw [h6, h23, h24, h26, h36]
  rfl

/-- The seventh stretch: the aggregation of region 1's output, with the normalisation the sixth stretch left. -/
theorem ops2_v82 (a : (⟨Cert.ReferenceIdeal.S100000x128, .bf16⟩ : BufTy).Contents (Elt F))
    (h68 : V (Proc.devRef .tc main_v68) = a)
    (h23 : V (Proc.devRef .tc main_v23) = val_main_v35 (F := F) x1)
    (h24 : V (Proc.devRef .tc main_v24) = val_main_v36 (F := F) x1)
    (h52 : V (Proc.devRef .tc main_v52) = val_main_v64 (F := F) x1 x2 x4) :
    StableHlo.after hostOps2 V (Proc.devRef .tc main_v82) = aggK x1 x2 x4 a := by
  after_results_simp
  rw [h68, h23, h24, h52]
  rfl

/-- A bias vector as a one-row matrix. -/
theorem ops14_v67 (x6 : (⟨S128, .f32⟩ : BufTy).Contents (Elt F)) (h : V (Proc.devRef .tc main_arg6) = x6) :
    StableHlo.after hostOps1_4 V (Proc.devRef .tc main_v67) = shapeCast S1x128 x6 shapeCasts_S128_S1x128 := by
  after_results_simp
  rw [h]
  rfl
theorem ops2_v83 (x8 : (⟨S128, .f32⟩ : BufTy).Contents (Elt F)) (h : V (Proc.devRef .tc main_arg8) = x8) :
    StableHlo.after hostOps2 V (Proc.devRef .tc main_v83) = shapeCast S1x128 x8 shapeCasts_S128_S1x128 := by
  after_results_simp
  rw [h]
  rfl
/-- The head's bias as a one-by-one matrix. -/
theorem ops2_v84 (x10 : (⟨S1, .f32⟩ : BufTy).Contents (Elt F)) (h : V (Proc.devRef .tc main_arg10) = x10) :
    StableHlo.after hostOps2 V (Proc.devRef .tc main_v84) = shapeCast S1x1 x10 shapeCasts_S1_S1x1 := by
  after_results_simp
  rw [h]
  rfl

/-! #### Buffers a run of stretches does not write -/

theorem keep12_v31 : StableHlo.after hostOps1_2 (StableHlo.after hostOps1_1 V) (Proc.devRef .tc main_v31) = V (Proc.devRef .tc main_v31) := by
  after_results_simp
theorem keep13_v23 : StableHlo.after hostOps1_3 (StableHlo.after hostOps1_2 (StableHlo.after hostOps1_1 V)) (Proc.devRef .tc main_v23) = V (Proc.devRef .tc main_v23) := by
  after_results_simp
theorem keep13_v24 : StableHlo.after hostOps1_3 (StableHlo.after hostOps1_2 (StableHlo.after hostOps1_1 V)) (Proc.devRef .tc main_v24) = V (Proc.devRef .tc main_v24) := by
  after_results_simp
theorem keep13_v26 : StableHlo.after hostOps1_3 (StableHlo.after hostOps1_2 (StableHlo.after hostOps1_1 V)) (Proc.devRef .tc main_v26) = V (Proc.devRef .tc main_v26) := by
  after_results_simp
theorem keep13_v6 : StableHlo.after hostOps1_3 (StableHlo.after hostOps1_2 (StableHlo.after hostOps1_1 (StableHlo.after hostOps1 V))) (Proc.devRef .tc main_v6) = V (Proc.devRef .tc main_v6) := by
  after_results_simp
theorem keep13_arg6 : StableHlo.after hostOps1_3 (StableHlo.after hostOps1_2 (StableHlo.after hostOps1_1 (StableHlo.after hostOps1 V))) (Proc.devRef .tc main_arg6) = V (Proc.devRef .tc main_arg6) := by
  after_results_simp
theorem keep14_v23 : StableHlo.after hostOps1_4 V (Proc.devRef .tc main_v23) = V (Proc.devRef .tc main_v23) := by
  after_results_simp
theorem keep14_v24 : StableHlo.after hostOps1_4 V (Proc.devRef .tc main_v24) = V (Proc.devRef .tc main_v24) := by
  after_results_simp
theorem keep14_arg7 : StableHlo.after hostOps1_4 (StableHlo.after hostOps1_3 (StableHlo.after hostOps1_2 (StableHlo.after hostOps1_1 (StableHlo.after hostOps1 V)))) (Proc.devRef .tc main_arg7) = V (Proc.devRef .tc main_arg7) := by
  after_results_simp
theorem keep14_arg8 : StableHlo.after hostOps1_4 (StableHlo.after hostOps1_3 (StableHlo.after hostOps1_2 (StableHlo.after hostOps1_1 (StableHlo.after hostOps1 V)))) (Proc.devRef .tc main_arg8) = V (Proc.devRef .tc main_arg8) := by
  after_results_simp
theorem keep14_arg9 : StableHlo.after hostOps1_4 (StableHlo.after hostOps1_3 (StableHlo.after hostOps1_2 (StableHlo.after hostOps1_1 (StableHlo.after hostOps1 V)))) (Proc.devRef .tc main_arg9) = V (Proc.devRef .tc main_arg9) := by
  after_results_simp
theorem keep14_arg10 : StableHlo.after hostOps1_4 (StableHlo.after hostOps1_3 (StableHlo.after hostOps1_2 (StableHlo.after hostOps1_1 (StableHlo.after hostOps1 V)))) (Proc.devRef .tc main_arg10) = V (Proc.devRef .tc main_arg10) := by
  after_results_simp
theorem keep2_arg9 : StableHlo.after hostOps2 V (Proc.devRef .tc main_arg9) = V (Proc.devRef .tc main_arg9) := by
  after_results_simp

end Chain

/-- An argument's buffer at region 0's entry: the first stretch does not write it. -/
local macro "from_launch" : tactic =>
  `(tactic| (show StableHlo.after hostOps0 (W0 _ _ _) _ = _; after_results_simp))

/-! ### The buffers the stretches read, walked back to the launch memory -/

section Walk
open Cert.ReferenceIdeal.Read

theorem w1_v1 : W1 m ρ c (Proc.devRef .tc main_v1) = val_main_v30 (F := Ideal) (m ((c : Thread nD τ).loc main_arg1)) :=
  ops0_v1 (W0 m ρ c) _ rfl
theorem w1_v3 : W1 m ρ c (Proc.devRef .tc main_v3) = val_main_v32 (F := Ideal) (m ((c : Thread nD τ).loc main_arg1)) :=
  ops0_v3 (W0 m ρ c) _ rfl
theorem w2_v1 : W2 m ρ c (Proc.devRef .tc main_v1) = val_main_v30 (F := Ideal) (m ((c : Thread nD τ).loc main_arg1)) :=
  (W2_of_ne m ρ c main_v1 (by decide)).trans (w1_v1 m ρ c)
theorem w2_v3 : W2 m ρ c (Proc.devRef .tc main_v3) = val_main_v32 (F := Ideal) (m ((c : Thread nD τ).loc main_arg1)) :=
  (W2_of_ne m ρ c main_v3 (by decide)).trans (w1_v3 m ρ c)
theorem w2_arg2 : W2 m ρ c (Proc.devRef .tc main_arg2) = m ((c : Thread nD τ).loc main_arg2) :=
  (W2_of_ne m ρ c main_arg2 (by decide)).trans (by from_launch)
theorem w2_arg4 : W2 m ρ c (Proc.devRef .tc main_arg4) = m ((c : Thread nD τ).loc main_arg4) :=
  (W2_of_ne m ρ c main_arg4 (by decide)).trans (by from_launch)

theorem w3_v23 : W3 m ρ c (Proc.devRef .tc main_v23) = val_main_v35 (F := Ideal) (m ((c : Thread nD τ).loc main_arg1)) :=
  ops1_v23 (W2 m ρ c) _ (w2_v1 m ρ c)
theorem w3_v24 : W3 m ρ c (Proc.devRef .tc main_v24) = val_main_v36 (F := Ideal) (m ((c : Thread nD τ).loc main_arg1)) :=
  ops1_v24 (W2 m ρ c) _ (w2_v3 m ρ c)
theorem w3_v26 : W3 m ρ c (Proc.devRef .tc main_v26)
    = val_main_v38 (F := Ideal) (m ((c : Thread nD τ).loc main_arg2)) (m ((c : Thread nD τ).loc main_arg4)) :=
  ops1_v26 (W2 m ρ c) _ _ (w2_arg2 m ρ c) (w2_arg4 m ρ c)
theorem w3_v29 : W3 m ρ c (Proc.devRef .tc main_v29)
    = val_main_v41 (F := Ideal) (m ((c : Thread nD τ).loc main_arg1)) (m ((c : Thread nD τ).loc main_arg2)) (m ((c : Thread nD τ).loc main_arg4)) :=
  ops1_v29 (W2 m ρ c) _ _ _ (w2_v3 m ρ c) (w2_arg2 m ρ c) (w2_arg4 m ρ c)
theorem w3_v31 : W3 m ρ c (Proc.devRef .tc main_v31)
    = val_main_v43 (F := Ideal) (m ((c : Thread nD τ).loc main_arg1)) (m ((c : Thread nD τ).loc main_arg2)) (m ((c : Thread nD τ).loc main_arg4)) :=
  ops1_v31 (W2 m ρ c) _ _ _ (w2_v3 m ρ c) (w2_arg2 m ρ c) (w2_arg4 m ρ c)
theorem w3_v33 : W3 m ρ c (Proc.devRef .tc main_v33)
    = val_main_v45 (F := Ideal) (m ((c : Thread nD τ).loc main_arg1)) (m ((c : Thread nD τ).loc main_arg2)) (m ((c : Thread nD τ).loc main_arg4)) :=
  ops1_v33 (W2 m ρ c) _ _ _ (w2_v3 m ρ c) (w2_arg2 m ρ c) (w2_arg4 m ρ c)
theorem w3_cst6 : W3 m ρ c (Proc.devRef .tc main_cst_6) = val_main_cst_10 (F := Ideal) :=
  ops1_cst6 (W2 m ρ c)

theorem w4_v34 : W4 m ρ c (Proc.devRef .tc main_v34)
    = val_main_v46 (F := Ideal) (m ((c : Thread nD τ).loc main_arg1)) (m ((c : Thread nD τ).loc main_arg2)) (m ((c : Thread nD τ).loc main_arg4)) :=
  ops11_v34 (W3 m ρ c) _ _ _ (w3_v33 m ρ c) (w3_v29 m ρ c) (w3_cst6 m ρ c)
theorem w5_v35 : W5 m ρ c (Proc.devRef .tc main_v35)
    = val_main_v47 (F := Ideal) (m ((c : Thread nD τ).loc main_arg1)) (m ((c : Thread nD τ).loc main_arg2)) (m ((c : Thread nD τ).loc main_arg4)) :=
  ops12_v35 (W4 m ρ c) _ _ _ (w4_v34 m ρ c)
theorem w5_cst7 : W5 m ρ c (Proc.devRef .tc main_cst_7) = val_main_cst_11 (F := Ideal) :=
  ops12_cst7 (W4 m ρ c)
theorem w5_v31 : W5 m ρ c (Proc.devRef .tc main_v31)
    = val_main_v43 (F := Ideal) (m ((c : Thread nD τ).loc main_arg1)) (m ((c : Thread nD τ).loc main_arg2)) (m ((c : Thread nD τ).loc main_arg4)) :=
  (keep12_v31 (W3 m ρ c)).trans (w3_v31 m ρ c)
theorem w6_v36 : W6 m ρ c (Proc.devRef .tc main_v36)
    = val_main_v48 (F := Ideal) (m ((c : Thread nD τ).loc main_arg1)) (m ((c : Thread nD τ).loc main_arg2)) (m ((c : Thread nD τ).loc main_arg4)) :=
  ops13_v36 (W5 m ρ c) _ _ _ (w5_v31 m ρ c) (w5_v35 m ρ c) (w5_cst7 m ρ c)
theorem w6_v23 : W6 m ρ c (Proc.devRef .tc main_v23) = val_main_v35 (F := Ideal) (m ((c : Thread nD τ).loc main_arg1)) :=
  (keep13_v23 (W3 m ρ c)).trans (w3_v23 m ρ c)
theorem w6_v24 : W6 m ρ c (Proc.devRef .tc main_v24) = val_main_v36 (F := Ideal) (m ((c : Thread nD τ).loc main_arg1)) :=
  (keep13_v24 (W3 m ρ c)).trans (w3_v24 m ρ c)
theorem w6_v26 : W6 m ρ c (Proc.devRef .tc main_v26)
    = val_main_v38 (F := Ideal) (m ((c : Thread nD τ).loc main_arg2)) (m ((c : Thread nD τ).loc main_arg4)) :=
  (keep13_v26 (W3 m ρ c)).trans (w3_v26 m ρ c)
theorem w6_v6 : W6 m ρ c (Proc.devRef .tc main_v6) = V2 m ρ c main_v6 :=
  keep13_v6 (W2 m ρ c)
theorem w6_arg6 : W6 m ρ c (Proc.devRef .tc main_arg6) = m ((c : Thread nD τ).loc main_arg6) :=
  (keep13_arg6 (W2 m ρ c)).trans ((W2_of_ne m ρ c main_arg6 (by decide)).trans (by from_launch))

theorem w7_v52 : W7 m ρ c (Proc.devRef .tc main_v52)
    = val_main_v64 (F := Ideal) (m ((c : Thread nD τ).loc main_arg1)) (m ((c : Thread nD τ).loc main_arg2)) (m ((c : Thread nD τ).loc main_arg4)) :=
  ops14_v52 (W6 m ρ c) _ _ _ (w6_v23 m ρ c) (w6_v24 m ρ c) (w6_v26 m ρ c) (w6_v36 m ρ c)
theorem w8_v23 : W8 m ρ c (Proc.devRef .tc main_v23) = val_main_v35 (F := Ideal) (m ((c : Thread nD τ).loc main_arg1)) :=
  (W8_of_ne m ρ c main_v23 (by decide)).trans ((keep14_v23 (W6 m ρ c)).trans (w6_v23 m ρ c))
theorem w8_v24 : W8 m ρ c (Proc.devRef .tc main_v24) = val_main_v36 (F := Ideal) (m ((c : Thread nD τ).loc main_arg1)) :=
  (W8_of_ne m ρ c main_v24 (by decide)).trans ((keep14_v24 (W6 m ρ c)).trans (w6_v24 m ρ c))
theorem w8_v52 : W8 m ρ c (Proc.devRef .tc main_v52)
    = val_main_v64 (F := Ideal) (m ((c : Thread nD τ).loc main_arg1)) (m ((c : Thread nD τ).loc main_arg2)) (m ((c : Thread nD τ).loc main_arg4)) :=
  (W8_of_ne m ρ c main_v52 (by decide)).trans (w7_v52 m ρ c)
theorem w8_arg8 : W8 m ρ c (Proc.devRef .tc main_arg8) = m ((c : Thread nD τ).loc main_arg8) :=
  (W8_of_ne m ρ c main_arg8 (by decide)).trans ((keep14_arg8 (W2 m ρ c)).trans ((W2_of_ne m ρ c main_arg8 (by decide)).trans (by from_launch)))
theorem w8_arg10 : W8 m ρ c (Proc.devRef .tc main_arg10) = m ((c : Thread nD τ).loc main_arg10) :=
  (W8_of_ne m ρ c main_arg10 (by decide)).trans ((keep14_arg10 (W2 m ρ c)).trans ((W2_of_ne m ρ c main_arg10 (by decide)).trans (by from_launch)))

/-- Over the extended reals widening is the identity: the kernel program's aggregation is the reference's. -/
theorem aggK_eq_agg (x1 : (⟨Cert.ReferenceIdeal.S2x600000, .i32⟩ : BufTy).Contents (Elt Ideal))
    (x2 : (⟨Cert.ReferenceIdeal.S600000x3, .i32⟩ : BufTy).Contents (Elt Ideal))
    (x4 : (⟨Cert.ReferenceIdeal.S48x1, .f32⟩ : BufTy).Contents (Elt Ideal))
    (a : (⟨Cert.ReferenceIdeal.S100000x128, .bf16⟩ : BufTy).Contents (Elt Ideal)) :
    aggK (F := Ideal) x1 x2 x4 a = Cert.Bridge.agg (F := Ideal) a x1 x2 x4 := rfl

end Walk

/-! ### Entry of region 0 -/
theorem v1_arg0 : V1 m ρ c main_arg0 = m ((c : Thread nD τ).loc main_arg0) := by
  show StableHlo.after hostOps0 (W0 m ρ c) (Proc.devRef .tc main_arg0) = _
  after_results_simp

/-- The table region 0 reads, as a whole array: the product, narrowed. -/
theorem v1_v5 : V1 m ρ c main_v5 = truncf .bf16 (Host.dotGeneral (F := Ideal) (φ₁ := .f32) (φ₂ := .f32) dot_S576x128_S128x128_S576x128_1_0_0_1_n_n none
      (m ((c : Thread nD τ).loc main_arg3)) (m ((c : Thread nD τ).loc main_arg5))) bitsLt_bf16_f32 := by
  show StableHlo.after hostOps0 (W0 m ρ c) (Proc.devRef .tc main_v5) = _
  after_results_simp

/-- The table region 0 reads is the product of the atom table and W1, entry by entry a sum over the 128 hidden units. -/
theorem v1_v5_apply (k : Fin 576) (j : Fin 128) :
    V1 m ρ c main_v5 (ix2 k j) = ∑ d : Fin 128, (show S576x128.Idx → EReal from m ((c : Thread nD τ).loc main_arg3)) (ix2 k d) * (show S128x128.Idx → EReal from m ((c : Thread nD τ).loc main_arg5)) (ix2 d j) := by
  rw [v1_v5]
  exact dot0_apply _ _ k j

/-! ### Entry of region 1 -/
theorem v7_v66 : V7 m ρ c main_v66 = Cert.Bridge.agg (F := Ideal) (V2 m ρ c main_v6) (m ((c : Thread nD τ).loc main_arg1)) (m ((c : Thread nD τ).loc main_arg2)) (m ((c : Thread nD τ).loc main_arg4)) :=
  (ops14_v66 (W6 m ρ c) _ _ _ (V2 m ρ c main_v6) (w6_v6 m ρ c) (w6_v23 m ρ c) (w6_v24 m ρ c) (w6_v26 m ρ c) (w6_v36 m ρ c)).trans
    (aggK_eq_agg _ _ _ _)
theorem v7_v67_apply (k : Fin 128) : V7 m ρ c main_v67 (ix2 0 k) = m ((c : Thread nD τ).loc main_arg6) (ix1 k) :=
  (congrFun (ops14_v67 (W6 m ρ c) _ (w6_arg6 m ρ c)) (ix2 0 k)).trans
    (shapeCast_apply _ shapeCasts_S128_S1x128 (ix2 0 k) (ix1 k) (by
      rewrite [Shape.rowMajor_val_one, Shape.rowMajor_val_two]
      show k.val = 0 * 128 + k.val
      omega))
theorem v7_arg7 : V7 m ρ c main_arg7 = m ((c : Thread nD τ).loc main_arg7) :=
  (keep14_arg7 (W2 m ρ c)).trans ((W2_of_ne m ρ c main_arg7 (by decide)).trans (by from_launch))

/-! ### Entry of region 2 -/
theorem v9_v82 : V9 m ρ c main_v82 = Cert.Bridge.agg (F := Ideal) (V8 m ρ c main_v68) (m ((c : Thread nD τ).loc main_arg1)) (m ((c : Thread nD τ).loc main_arg2)) (m ((c : Thread nD τ).loc main_arg4)) :=
  (ops2_v82 (W8 m ρ c) _ _ _ (V8 m ρ c main_v68) rfl (w8_v23 m ρ c) (w8_v24 m ρ c) (w8_v52 m ρ c)).trans
    (aggK_eq_agg _ _ _ _)
theorem v9_v83_apply (k : Fin 128) : V9 m ρ c main_v83 (ix2 0 k) = m ((c : Thread nD τ).loc main_arg8) (ix1 k) :=
  (congrFun (ops2_v83 (W8 m ρ c) _ (w8_arg8 m ρ c)) (ix2 0 k)).trans
    (shapeCast_apply _ shapeCasts_S128_S1x128 (ix2 0 k) (ix1 k) (by
      rewrite [Shape.rowMajor_val_one, Shape.rowMajor_val_two]
      show k.val = 0 * 128 + k.val
      omega))
theorem v9_arg9 : V9 m ρ c main_arg9 = m ((c : Thread nD τ).loc main_arg9) :=
  (keep2_arg9 (W8 m ρ c)).trans ((W8_of_ne m ρ c main_arg9 (by decide)).trans
    ((keep14_arg9 (W2 m ρ c)).trans ((W2_of_ne m ρ c main_arg9 (by decide)).trans (by from_launch))))
theorem v9_v84_apply : V9 m ρ c main_v84 (ix2 0 0) = m ((c : Thread nD τ).loc main_arg10) (ix1 0) :=
  (congrFun (ops2_v84 (W8 m ρ c) _ (w8_arg10 m ρ c)) (ix2 0 0)).trans
    (shapeCast_apply _ shapeCasts_S1_S1x1 (ix2 0 0) (ix1 0) (by
      rewrite [Shape.rowMajor_val_one, Shape.rowMajor_val_two]
      rfl))

end Cert.KernelIdeal.HostVals

end
-- ==== Proof.AtomEnc.lean ====
/-
  The first region's algebra: counting, for each table row k, the features whose offset index is k and summing count
  times (atom_table · W1)[k, j] over k is, when every offset index is a row of the table and both tables are real,
  the sum over the nine features of (atom_table · W1)[index_f, j], which is ((Σ_f atom_table[index_f, ·]) · W1)[j]:
  the reference's gather, sum over features and product with W1.
-/
import proofs.«414741_j70111046140326_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws
import Mathlib.Data.EReal.Basic
import Mathlib.Algebra.BigOperators.Group.Finset.Basic
import Mathlib.Algebra.BigOperators.Ring.Finset

noncomputable section

namespace Cert.Bridge

open Cert.ReferenceIdeal Cert.ReferenceIdeal.Gen Cert.ReferenceIdeal.Read
open Idealize.ShloMosaic Idealize.ShloMosaic.ValueIdx

open scoped BigOperators

/-! ## Words: the offset index of a feature -/

/-- Feature `f`'s offset as a word: `f · 64` is the word of `64 f`. -/
private theorem feat_word : ∀ f : Fin 9, BitVec.ofNat 32 f.val * 64#32 = BitVec.ofNat 32 (64 * f.val) := by decide

/-- A signed comparison with zero of a word whose signed value is non-negative is false. -/
private theorem slt_zero_of_nonneg (w : BitVec 32) (h0 : 0 ≤ w.toInt) : IntOp.cmpi .slt w 0#32 = 0#1 := by
  unfold IntOp.cmpi
  have : BitVec.slt w 0#32 = false := by
    rw [BitVec.slt]
    simp only [decide_eq_false_iff_not, not_lt]
    simpa using h0
  show BitVec.ofBool (BitVec.slt w 0#32) = 0#1
  rw [this]; rfl

/-- A word whose signed value is a row number below 576 is the word of row `k` exactly when that value is `k`. -/
private theorem word_eq_row_iff (w : BitVec 32) (h0 : 0 ≤ w.toInt) (h1 : w.toInt < 576) (k : Fin 576) :
    w = BitVec.ofNat 32 k.val ↔ (⟨w.toInt.toNat, by omega⟩ : Fin 576) = k := by
  have hk : (BitVec.ofNat 32 k.val).toInt = (k.val : Int) :=
    StableHlo.Predicate.toInt_ofNat_small k.val (by have := k.isLt; omega)
  constructor
  · intro e
    refine Fin.ext ?_
    show w.toInt.toNat = k.val
    rw [e, hk]; simp
  · intro e
    have e' : w.toInt.toNat = k.val := congrArg Fin.val e
    apply BitVec.eq_of_toInt_eq
    rw [hk]; omega

/-- The table row feature `f` of node `p` reads: the signed value of its offset index. -/
private def rowOf (x : (⟨2, ![100000, 9]⟩ : Shape).Idx → BitVec 32) (hx : InRange x) (p : Fin 100000) (f : Fin 9) : Fin 576 :=
  ⟨(x (ix2 p f) + BitVec.ofNat 32 (64 * f.val)).toInt.toNat, by have := hx p f; omega⟩

/-! ## The reference's index arithmetic at a node and feature -/

/-- The reference's offset index at `(p, f)` is the word sum `x[p, f] + 64 f`. -/
private theorem v5_at (x : (⟨S100000x9, .i32⟩ : BufTy).Contents (Elt Ideal)) (p : Fin 100000) (f : Fin 9) :
    val_main_v5 (F := Ideal) x (ix2 p f) = x (ix2 p f) + BitVec.ofNat 32 (64 * f.val) := by
  rw [val_main_v5_apply, val_main_v4_apply, val_main_v3_apply, val_main_v2_apply, val_main_v0_apply, val_main_v1_apply,
    val_main_c_apply]
  show x (ix2 p f) + BitVec.ofNat 32 f.val * 64#32 = _
  rw [feat_word]

/-- A non-negative offset index is not wrapped: the select on "index below zero" keeps it. -/
private theorem v10_at (x : (⟨S100000x9, .i32⟩ : BufTy).Contents (Elt Ideal)) (p : Fin 100000) (f : Fin 9)
    (h : 0 ≤ (x (ix2 p f) + BitVec.ofNat 32 (64 * f.val)).toInt) :
    val_main_v10 (F := Ideal) x (ix2 p f) = x (ix2 p f) + BitVec.ofNat 32 (64 * f.val) := by
  rw [val_main_v10_apply, val_main_v7_apply, val_main_v6_apply, val_main_c_0_apply, v5_at,
    slt_zero_of_nonneg _ h, select_zero]

/-! ## The gather of table rows read at an index -/

/-- The gather of rows read at `(n, f, d)`: the table at row `r`, column `d`, when `r` is the start index of `(n, f)` read
    signed and clamped into the table's rows. -/
private theorem gather_rows_apply {α : Type} (A : S576x128.Idx → α) (idx : IVec S100000x9x1 32) (n : Fin 100000) (f : Fin 9)
    (d : Fin 128) (r : Fin 576) (hr : min (idx (ix3 n f 0)).toInt.toNat (576 - 1) = r.val) :
    Host.gather gather_S576x128_S100000x9x1_S100000x9x128_2_0_n_n_0_2_1128 A idx (ix3 n f d) = A (ix2 r d) := by
  unfold Host.gather
  congr 1
  funext a
  refine Fin.ext ?_
  match a with
  | ⟨0, _⟩ =>
    show gather_S576x128_S100000x9x1_S100000x9x128_2_0_n_n_0_2_1128.start (ix3 n f d) idx 0
      + gather_S576x128_S100000x9x1_S100000x9x128_2_0_n_n_0_2_1128.batchCoord (ix3 n f d) 0
      + gather_S576x128_S100000x9x1_S100000x9x128_2_0_n_n_0_2_1128.offCoord (ix3 n f d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S576x128_S100000x9x1_S100000x9x128_2_0_n_n_0_2_1128.startIndexMap from
      List.mem_singleton.mpr rfl)]
    have hsi : gather_S576x128_S100000x9x1_S100000x9x128_2_0_n_n_0_2_1128.siIdx (ix3 n f d)
        ⟨List.idxOf (0 : Fin 2) gather_S576x128_S100000x9x1_S100000x9x128_2_0_n_n_0_2_1128.startIndexMap,
          List.idxOf_lt_length_iff.2 (List.mem_singleton.mpr rfl)⟩ = ix3 n f 0 := by
      funext b; refine Fin.ext ?_
      match b with
      | ⟨0, _⟩ => rfl
      | ⟨1, _⟩ => rfl
      | ⟨2, _⟩ => rfl
    rw [hsi]
    exact hr
  | ⟨1, _⟩ =>
    show gather_S576x128_S100000x9x1_S100000x9x128_2_0_n_n_0_2_1128.start (ix3 n f d) idx 1
      + gather_S576x128_S100000x9x1_S100000x9x128_2_0_n_n_0_2_1128.batchCoord (ix3 n f d) 1
      + gather_S576x128_S100000x9x1_S100000x9x128_2_0_n_n_0_2_1128.offCoord (ix3 n f d) 1 = d.val
    rw [GatherDims.batchCoord_eq_zero _ _ _ List.not_mem_nil]
    have hs : gather_S576x128_S100000x9x1_S100000x9x128_2_0_n_n_0_2_1128.start (ix3 n f d) idx 1 = 0 := by
      unfold GatherDims.start
      rw [dif_neg (by decide)]
    rw [hs]
    simp only [Nat.add_zero, Nat.zero_add]
    unfold GatherDims.offCoord
    rw [dif_pos (by decide)]
    rfl

/-! ## The reference's stages at an index, under the range hypothesis -/

/-- The gathered array at `(n, f, d)` is the table at the row of `(n, f)`, column `d`: in range, the start index is
    neither wrapped nor clamped. -/
private theorem v12_at (x : (⟨S100000x9, .i32⟩ : BufTy).Contents (Elt Ideal)) (AT : (⟨S576x128, .f32⟩ : BufTy).Contents (Elt Ideal))
    (hx : InRange x) (n : Fin 100000) (f : Fin 9) (d : Fin 128) :
    val_main_v12 (F := Ideal) x AT (ix3 n f d) = AT (ix2 (rowOf x hx n f) d) := by
  unfold val_main_v12
  refine gather_rows_apply AT _ n f d (rowOf x hx n f) ?_
  have e : idx_main_v11 (ix3 n f (0 : Fin 1)) = ix2 n f := by
    funext a; match a with | ⟨0, _⟩ => rfl | ⟨1, _⟩ => rfl
  rw [val_main_v11_apply, e, v10_at x n f (hx n f).1]
  show min (x (ix2 n f) + BitVec.ofNat 32 (64 * f.val)).toInt.toNat (576 - 1)
    = (x (ix2 n f) + BitVec.ofNat 32 (64 * f.val)).toInt.toNat
  have := hx n f
  omega

/-- The sum over the nine features at `(n, d)`: the initial value is zero. -/
private theorem v13_at (x : (⟨S100000x9, .i32⟩ : BufTy).Contents (Elt Ideal)) (AT : (⟨S576x128, .f32⟩ : BufTy).Contents (Elt Ideal))
    (hx : InRange x) (n : Fin 100000) (d : Fin 128) :
    val_main_v13 (F := Ideal) x AT (ix2 n d) = ∑ f : Fin 9, AT (ix2 (rowOf x hx n f) d) := by
  rw [val_main_v13_apply, val_main_cst_apply]
  show Ideal.ofBits .f32 0x00000000#32 + _ = _
  rw [Ideal.ofBits_zero_f32, zero_add]
  refine Finset.sum_congr rfl fun f _ => ?_
  have e : idx_main_v13 (ix2 n d) f = ix3 n f d := by
    funext a; match a with | ⟨0, _⟩ => rfl | ⟨1, _⟩ => rfl | ⟨2, _⟩ => rfl
  rw [e, v12_at x AT hx]

/-- The reference's first linear map at `(n, j)`. -/
private theorem v33_at (x : (⟨S100000x9, .i32⟩ : BufTy).Contents (Elt Ideal)) (AT : (⟨S576x128, .f32⟩ : BufTy).Contents (Elt Ideal))
    (W : (⟨S128x128, .f32⟩ : BufTy).Contents (Elt Ideal)) (hx : InRange x) (n : Fin 100000) (j : Fin 128) :
    val_main_v33 (F := Ideal) x AT W (ix2 n j)
      = ∑ d : Fin 128, (∑ f : Fin 9, AT (ix2 (rowOf x hx n f) d)) * W (ix2 d j) := by
  rw [val_main_v33_apply]
  refine Finset.sum_congr rfl fun d _ => ?_
  have el : lidx_main_v33 (ix2 n j) d = ix2 n d := by
    funext a; match a with | ⟨0, _⟩ => rfl | ⟨1, _⟩ => rfl
  have er : ridx_main_v33 (ix2 n j) d = ix2 d j := by
    funext a; match a with | ⟨0, _⟩ => rfl | ⟨1, _⟩ => rfl
  rw [el, er, v13_at x AT hx]

/-! ## The algebra, over real tables -/

/-- The coercion of reals into extended reals commutes with finite sums. -/
private theorem coe_sum_real {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Over the reals: summing, over the rows `k`, the number of features on row `k` times row `k` of the product is summing
    the product's rows over the features, which is the product of the summed rows. -/
private theorem count_sum_real {ι κ δ : Type} [Fintype ι] [Fintype κ] [Fintype δ] [DecidableEq κ]
    (r : ι → κ) (A : κ → δ → ℝ) (w : δ → ℝ) :
    ∑ k, (∑ f, if r f = k then (1 : ℝ) else 0) * (∑ d, A k d * w d) = ∑ d, (∑ f, A (r f) d) * w d := by
  have h1 : ∀ t : κ → ℝ, ∑ k, (∑ f, if r f = k then (1 : ℝ) else 0) * t k = ∑ f, t (r f) := by
    intro t
    simp only [Finset.sum_mul]
    rw [Finset.sum_comm]
    refine Finset.sum_congr rfl fun f _ => ?_
    simp only [ite_mul, one_mul, zero_mul]
    rw [Finset.sum_ite_eq]
    simp
  rw [h1, Finset.sum_comm]
  refine Finset.sum_congr rfl fun d _ => ?_
  rw [Finset.sum_mul]

/-- The same over the extended reals when both tables are real: every term is the coercion of a real one. -/
private theorem count_sum_ereal {ι κ δ : Type} [Fintype ι] [Fintype κ] [Fintype δ] [DecidableEq κ]
    (r : ι → κ) (A : κ → δ → EReal) (w : δ → EReal) (t : κ → EReal)
    (hA : ∀ k d, A k d ≠ ⊤ ∧ A k d ≠ ⊥) (hw : ∀ d, w d ≠ ⊤ ∧ w d ≠ ⊥)
    (ht : ∀ k, t k = ∑ d, A k d * w d) :
    ∑ k, (∑ f, if r f = k then (1 : EReal) else 0) * t k = ∑ d, (∑ f, A (r f) d) * w d := by
  have eA : ∀ k d, A k d = ((A k d).toReal : EReal) := fun k d => (EReal.coe_toReal (hA k d).1 (hA k d).2).symm
  have ew : ∀ d, w d = ((w d).toReal : EReal) := fun d => (EReal.coe_toReal (hw d).1 (hw d).2).symm
  have eI : ∀ (f : ι) (k : κ), (if r f = k then (1 : EReal) else 0) = ((if r f = k then (1 : ℝ) else 0 : ℝ) : EReal) := by
    intro f k; split <;> simp
  have lhs : ∑ k, (∑ f, if r f = k then (1 : EReal) else 0) * t k
      = ((∑ k, (∑ f, if r f = k then (1 : ℝ) else 0) * (∑ d, (A k d).toReal * (w d).toReal) : ℝ) : EReal) := by
    rw [coe_sum_real]
    refine Finset.sum_congr rfl fun k _ => ?_
    rw [EReal.coe_mul, coe_sum_real, coe_sum_real, ht k]
    congr 1
    · exact Finset.sum_congr rfl fun f _ => eI f k
    · refine Finset.sum_congr rfl fun d _ => ?_
      rw [EReal.coe_mul, ← eA, ← ew]
  have rhs : ∑ d, (∑ f, A (r f) d) * w d
      = ((∑ d, (∑ f, (A (r f) d).toReal) * (w d).toReal : ℝ) : EReal) := by
    rw [coe_sum_real]
    refine Finset.sum_congr rfl fun d _ => ?_
    rw [EReal.coe_mul, coe_sum_real, ← ew]
    congr 1
    exact Finset.sum_congr rfl fun f _ => eA (r f) d
  rw [lhs, rhs, count_sum_real r (fun k d => (A k d).toReal) (fun d => (w d).toReal)]

/-! ## The first region's closed form is the reference's first linear map -/

theorem atomenc_eq (x : (⟨S100000x9, .i32⟩ : BufTy).Contents (Elt Ideal)) (AT : (⟨S576x128, .f32⟩ : BufTy).Contents (Elt Ideal))
    (W : (⟨S128x128, .f32⟩ : BufTy).Contents (Elt Ideal)) (T : (⟨2, ![576, 128]⟩ : Shape).Idx → EReal)
    (hT : ∀ (k : Fin 576) (j : Fin 128), T (ix2 k j) = ∑ d : Fin 128, AT (ix2 k d) * W (ix2 d j))
    (hx : InRange x) (hAT : Finite AT) (hW : Finite W) :
    G0 x T = val_main_v33 (F := Ideal) x AT W := by
  funext i
  obtain ⟨n, j, rfl⟩ : ∃ n j, i = ix2 n j := ⟨i 0, i 1, eq_ix2 i⟩
  rw [v33_at x AT W hx n j]
  show ∑ k : Fin 576, (∑ f : Fin 9,
      if x (ix2 n f) + BitVec.ofNat 32 (64 * f.val) = BitVec.ofNat 32 k.val then (1 : EReal) else 0) * T (ix2 k j) = _
  have hind : ∀ (k : Fin 576) (f : Fin 9),
      (if x (ix2 n f) + BitVec.ofNat 32 (64 * f.val) = BitVec.ofNat 32 k.val then (1 : EReal) else 0)
        = if rowOf x hx n f = k then 1 else 0 :=
    fun k f => if_congr (word_eq_row_iff _ (hx n f).1 (hx n f).2 k) rfl rfl
  simp only [hind]
  exact count_sum_ereal (rowOf x hx n) (fun k d => AT (ix2 k d)) (fun d => W (ix2 d j)) (fun k => T (ix2 k j))
    (fun k d => hAT _) (fun d => hW _) (fun k => hT k j)

end Cert.Bridge

end
-- ==== Proof.Layers.lean ====
/-
  The two later dense maps, index by index: the reference's dot_general over the whole array is, entry by entry, the sum
  over the 128 hidden units that the kernel's per-block matmul computes; the biases enter through broadcasts of a
  [128] (or [1]) array that the kernel reads as a [1, 128] (or [1, 1]) array with the same entries.
-/
import proofs.«414741_j70111046140326_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.Bridge.Layers

open Cert.ReferenceIdeal Cert.ReferenceIdeal.Gen Cert.ReferenceIdeal.Read
open Idealize.ShloMosaic Idealize.ShloMosaic.ValueIdx

/-! ## The two products at an index, for any left operand -/

/-- Entry `(n, j)` of the [100000,128] × [128,128] product is the sum over the contracted axis `k` of the left operand
    at `(n, k)` times the right operand at `(k, j)`. -/
theorem dotLayer_apply (y : (⟨S100000x128, .f32⟩ : BufTy).Contents (Elt Ideal))
    (w : (⟨S128x128, .f32⟩ : BufTy).Contents (Elt Ideal)) (i : S100000x128.Idx) :
    Host.dotGeneral (F := Ideal) (φ₁ := .f32) (φ₂ := .f32) dot_S100000x128_S128x128_S100000x128_1_0_0_1_n_n none y w i
      = ∑ k : Fin 128, y (lidx_main_v82 i k) * w (ridx_main_v82 i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v82 i k := funext fun a => Fin.ext (by
    match a with
    | ⟨0, _⟩ => exact lhs_main_v82_0 _ _
    | ⟨1, _⟩ => exact (lhs_main_v82_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v82 i k := funext fun a => Fin.ext (by
    match a with
    | ⟨0, _⟩ => exact (rhs_main_v82_0 _ _).trans hk
    | ⟨1, _⟩ => exact rhs_main_v82_1 _ _)
  rw [el, er]

/-- Entry `(n, 0)` of the [100000,128] × [128,1] product, likewise. -/
theorem dotHead_apply (y : (⟨S100000x128, .f32⟩ : BufTy).Contents (Elt Ideal))
    (w : (⟨S128x1, .f32⟩ : BufTy).Contents (Elt Ideal)) (i : S100000x1.Idx) :
    Host.dotGeneral (F := Ideal) (φ₁ := .f32) (φ₂ := .f32) dot_S100000x128_S128x1_S100000x1_1_0_0_1_n_n none y w i
      = ∑ k : Fin 128, y (lidx_main_v130 i k) * w (ridx_main_v130 i k) := by
  simp only [Host.dotGeneral]
  rw [Ideal.dotGeneral_apply, ← Equiv.sum_comp (ValueIdx.contrEquiv1 dot_S100000x128_S128x1_S100000x1_1_0_0_1_n_n 128 rfl rfl).symm]
  refine Finset.sum_congr rfl fun k _ => ?_
  have hk := ValueIdx.contrEquiv1_symm_val dot_S100000x128_S128x1_S100000x1_1_0_0_1_n_n 128 rfl rfl k
  have el : dot_S100000x128_S128x1_S100000x1_1_0_0_1_n_n.lhsIdx i ((ValueIdx.contrEquiv1 dot_S100000x128_S128x1_S100000x1_1_0_0_1_n_n 128 rfl rfl).symm k) = lidx_main_v130 i k := funext fun a => Fin.ext (by
    match a with
    | ⟨0, _⟩ => exact lhs_main_v130_0 _ _
    | ⟨1, _⟩ => exact (lhs_main_v130_1 _ _).trans hk)
  have er : dot_S100000x128_S128x1_S100000x1_1_0_0_1_n_n.rhsIdx i ((ValueIdx.contrEquiv1 dot_S100000x128_S128x1_S100000x1_1_0_0_1_n_n 128 rfl rfl).symm k) = ridx_main_v130 i k := funext fun a => Fin.ext (by
    match a with
    | ⟨0, _⟩ => exact (rhs_main_v130_0 _ _).trans hk
    | ⟨1, _⟩ => exact rhs_main_v130_1 _ _)
  rw [el, er]

/-! ## The host's exponential and negation at an index -/

/-- The host's exponential at an index is the extended reals' exponential of the element. -/
theorem hostExp_apply {s : Shape} {φ : FTy} (x : FVec Ideal s φ) (i : s.Idx) : Host.exp x i = Ideal.exp (x i) := rfl

/-- The host's negation at an index is the negative of the element. -/
theorem hostNegf_apply {s : Shape} {φ : FTy} (x : FVec Ideal s φ) (i : s.Idx) : Host.negf x i = -(x i) := rfl

/-! ## The broadcast stages at an index -/

/-- The first bias, broadcast over the rows, reads the [128] array at the column. -/
theorem bias1_apply (b : (⟨S128, .f32⟩ : BufTy).Contents (Elt Ideal)) (n : Fin 100000) (k : Fin 128) :
    val_main_v79 (F := Ideal) b (ix2 n k) = b (ix1 k) := by
  rw [val_main_v79_apply, val_main_v78_apply]
  exact congrArg b (funext fun a => Fin.ext (by match a with | ⟨0, _⟩ => rfl))

/-- The second bias, likewise. -/
theorem bias2_apply (b : (⟨S128, .f32⟩ : BufTy).Contents (Elt Ideal)) (n : Fin 100000) (k : Fin 128) :
    val_main_v128 (F := Ideal) b (ix2 n k) = b (ix1 k) := by
  rw [val_main_v128_apply, val_main_v127_apply]
  exact congrArg b (funext fun a => Fin.ext (by match a with | ⟨0, _⟩ => rfl))

/-- The head's bias, broadcast over the rows, reads the [1] array's one entry. -/
theorem lbias_apply (lb : (⟨S1, .f32⟩ : BufTy).Contents (Elt Ideal)) (i : S100000x1.Idx) :
    val_main_v132 (F := Ideal) lb i = lb (ix1 0) := by
  rw [val_main_v132_apply, val_main_v131_apply]
  exact congrArg lb (funext fun a => Fin.ext (by match a with | ⟨0, _⟩ => rfl))

/-- The clamp's constant is zero. -/
theorem zero_apply (i : S100000x128.Idx) : val_main_call2_v0 (F := Ideal) i = 0 := by
  rw [val_main_call2_v0_apply, val_main_call2_cst_apply]
  exact Ideal.ofBits_zero_f32

/-- The logistic's two constants are one. -/
theorem one136_apply (i : S100000x1.Idx) : val_main_v136 (F := Ideal) i = 1 := by
  rw [val_main_v136_apply, val_main_cst_32_apply]
  exact Ideal.ofBits_one_f32
theorem one138_apply (i : S100000x1.Idx) : val_main_v138 (F := Ideal) i = 1 := by
  rw [val_main_v138_apply, val_main_cst_33_apply]
  exact Ideal.ofBits_one_f32

end Cert.Bridge.Layers

namespace Cert.Bridge

open Cert.ReferenceIdeal Cert.ReferenceIdeal.Gen Cert.ReferenceIdeal.Read
open Idealize.ShloMosaic Idealize.ShloMosaic.ValueIdx
open Cert.Bridge.Layers

/-! ## The two stages are the closed forms -/

theorem layer_eq (a : (⟨S100000x128, .f32⟩ : BufTy).Contents (Elt Ideal)) (b : (⟨S128, .f32⟩ : BufTy).Contents (Elt Ideal))
    (b2 : (⟨2, ![1, 128]⟩ : Shape).Idx → EReal) (w : (⟨S128x128, .f32⟩ : BufTy).Contents (Elt Ideal))
    (hb : ∀ k : Fin 128, b2 (ix2 0 k) = b (ix1 k)) :
    G1 a b2 w = layer (F := Ideal) a b w := by
  funext i
  obtain ⟨n, j, rfl⟩ : ∃ n j, i = ix2 n j := ⟨i 0, i 1, eq_ix2 i⟩
  unfold layer
  rw [dotLayer_apply]
  show (∑ k : Fin 128, max (a (ix2 n k) + b2 (ix2 0 k)) 0 * w (ix2 k j)) = _
  refine Finset.sum_congr rfl fun k _ => ?_
  have hl : lidx_main_v82 (ix2 n j) k = ix2 n k :=
    funext fun c => Fin.ext (by match c with | ⟨0, _⟩ => rfl | ⟨1, _⟩ => rfl)
  have hr : ridx_main_v82 (ix2 n j) k = ix2 k j :=
    funext fun c => Fin.ext (by match c with | ⟨0, _⟩ => rfl | ⟨1, _⟩ => rfl)
  rw [hl, hr, maximumf_apply, addf_apply, bias1_apply, zero_apply, hb]

theorem head_eq (a : (⟨S100000x128, .f32⟩ : BufTy).Contents (Elt Ideal)) (b : (⟨S128, .f32⟩ : BufTy).Contents (Elt Ideal))
    (b2 : (⟨2, ![1, 128]⟩ : Shape).Idx → EReal) (w : (⟨S128x1, .f32⟩ : BufTy).Contents (Elt Ideal))
    (lb : (⟨S1, .f32⟩ : BufTy).Contents (Elt Ideal)) (lb2 : (⟨2, ![1, 1]⟩ : Shape).Idx → EReal)
    (hb : ∀ k : Fin 128, b2 (ix2 0 k) = b (ix1 k)) (hlb : lb2 (ix2 0 0) = lb (ix1 0)) :
    G2 a b2 w lb2 = head (F := Ideal) a b w lb := by
  funext i
  obtain ⟨n, j, rfl⟩ : ∃ n j, i = ix2 n j := ⟨i 0, i 1, eq_ix2 i⟩
  have hl : ∀ k : Fin 128, lidx_main_v130 (ix2 n j) k = ix2 n k := fun k =>
    funext fun c => Fin.ext (by match c with | ⟨0, _⟩ => rfl | ⟨1, _⟩ => rfl)
  have hr : ∀ k : Fin 128, ridx_main_v130 (ix2 n j) k = ix2 k j := fun k =>
    funext fun c => Fin.ext (by match c with | ⟨0, _⟩ => rfl | ⟨1, _⟩ => rfl)
  have hs : (∑ k : Fin 128, (addf (F := Ideal) (s := S100000x128) (φ := .f32) a (val_main_v128 (F := Ideal) b)) (lidx_main_v130 (ix2 n j) k) * w (ridx_main_v130 (ix2 n j) k))
      = ∑ k : Fin 128, (a (ix2 n k) + b2 (ix2 0 k)) * w (ix2 k j) := Finset.sum_congr rfl fun k _ => by
    rw [hl k, hr k, addf_apply, bias2_apply, hb]
  unfold head
  rw [hostDivf_apply, addf_apply, hostExp_apply, hostNegf_apply, addf_apply, one138_apply, one136_apply, lbias_apply,
    dotHead_apply, hs, ← hlb]
  rfl

end Cert.Bridge

end
-- ==== Proof.PreDecode.lean ====
/-
  The precondition read at an entry: every float input is finite, and every node feature x[n, f] satisfies
  -64 f ≤ x[n, f] < 576 - 64 f as signed words, so the word sum x[n, f] + 64 f does not wrap and lies in [0, 576).
-/
import proofs.«414741_j70111046140326_3_alg».proof.Pre_finite_inputs
import proofs.«414741_j70111046140326_3_alg».proof.Proof.Gen.Pre_finite_inputs
import proofs.«414741_j70111046140326_3_alg».proof.Proof.SpecG
import Idealize.ShloMosaic.Lib.ReduceAll
import Idealize.ShloMosaic.Lib.StableHlo.Predicate
import Idealize.ShloMosaic.Lib.ValueIdx

noncomputable section

namespace Cert.Bridge

open Idealize.ShloMosaic Idealize.ShloMosaic.ValueIdx

namespace PreDecode

open Cert.Pre_finite_inputs in
instance subsingleton_scalar_idx : Subsingleton S_.Idx := ⟨fun a b => funext fun d => d.elim0⟩

/-- The word 0x7F800000 is the f32 pattern of +∞. -/
theorem inf_word : Ideal.ofBits .f32 0x7F800000#32 = (⊤ : EReal) := by
  simp [Ideal.ofBits, Ideal.ieee]

/-- |x| < +∞ on the extended reals says x is neither infinity. -/
theorem finite_of_abs_lt (x : EReal) (h : Ideal.cmp .olt (max x (-x)) (Ideal.ofBits .f32 0x7F800000#32) = 1#1) :
    x ≠ ⊤ ∧ x ≠ ⊥ := by
  rw [inf_word] at h
  simp only [Ideal.cmp, StableHlo.Predicate.ofBool_eq_one_iff, decide_eq_true_eq] at h
  constructor
  · rintro rfl; simp at h
  · rintro rfl; simp at h

/-- A conjunction of two bit arrays that is 1 at an index has both 1 there. -/
theorem andi_at {s : Shape} (x y : IVec s 1) (i : s.Idx) (h : andi x y i = 1#1) : x i = 1#1 ∧ y i = 1#1 :=
  IntOp.andi_eq_one.1 h

section
open Cert.Pre_finite_inputs

/-- "all (|a| < +∞)" over a whole array says every entry is a real. -/
theorem finite_of_all {s : Shape} {axes : List (Fin s.rank)} (a : FVec Ideal s .f32) (hb : S_.BroadcastsInDim s ![])
    (hr : s.ReducesTo axes S_) (hu : 0 < S_.numel)
    (e : Host.reduce IntOp.andi (cmpf .olt (Host.absf a) (broadcastInDim s ![] hb (constant S_ .f32 0x7F800000#32)))
      (constantI S_ 1 1#1) hr hu ix0 = 1#1) : Finite a := by
  intro i
  exact finite_of_abs_lt (a i) (Host.reduce_andi_all _ _ hr hu ix0 e i)

/-- "all (x ≥ v[None, :])" read at (p, f): v[f] ≤ x[p, f], signed. -/
theorem sge_at (a0 : IVec S100000x9 32) (v : IVec S9 32) (hb1 : S9.BroadcastsInDim S1x9 ![1])
    (hb2 : S1x9.BroadcastsInDim S100000x9 ![0, 1]) (hr : S100000x9.ReducesTo [0, 1] S_) (hu : 0 < S_.numel)
    (e : Host.reduce IntOp.andi (cmpi .sge a0 (broadcastInDim S100000x9 ![0, 1] hb2 (broadcastInDim S1x9 ![1] hb1 v)))
      (constantI S_ 1 1#1) hr hu ix0 = 1#1) (p : Fin 100000) (f : Fin 9) :
    (v (Shape.Idx.ofFin f)).toInt ≤ (a0 (ix2 p f)).toInt := by
  have e1 : IntOp.cmpi .sge (a0 (ix2 p f))
      (broadcastInDim S100000x9 ![0, 1] hb2 (broadcastInDim S1x9 ![1] hb1 v) (StableHlo.Predicate.ij p f)) = 1#1 :=
    Host.reduce_andi_all _ _ hr hu ix0 e (ix2 p f)
  rw [StableHlo.Predicate.bcast_cols] at e1
  exact IntOp.cmpi_sge.1 e1

/-- "all (x < v[None, :])" read at (p, f): x[p, f] < v[f], signed. -/
theorem slt_at (a0 : IVec S100000x9 32) (v : IVec S9 32) (hb1 : S9.BroadcastsInDim S1x9 ![1])
    (hb2 : S1x9.BroadcastsInDim S100000x9 ![0, 1]) (hr : S100000x9.ReducesTo [0, 1] S_) (hu : 0 < S_.numel)
    (e : Host.reduce IntOp.andi (cmpi .slt a0 (broadcastInDim S100000x9 ![0, 1] hb2 (broadcastInDim S1x9 ![1] hb1 v)))
      (constantI S_ 1 1#1) hr hu ix0 = 1#1) (p : Fin 100000) (f : Fin 9) :
    (a0 (ix2 p f)).toInt < (v (Shape.Idx.ofFin f)).toInt := by
  have e1 : IntOp.cmpi .slt (a0 (ix2 p f))
      (broadcastInDim S100000x9 ![0, 1] hb2 (broadcastInDim S1x9 ![1] hb1 v) (StableHlo.Predicate.ij p f)) = 1#1 :=
    Host.reduce_andi_all _ _ hr hu ix0 e (ix2 p f)
  rw [StableHlo.Predicate.bcast_cols] at e1
  exact IntOp.cmpi_slt.1 e1

end

/-- The nine columns' word arithmetic: -64 f ≤ w < 576 - 64 f (signed) puts the word sum w + 64 f in [0, 576). -/
theorem word_range (f : Fin 9) (w : BitVec 32)
    (h1 : (BitVec.ofNat 32 f.val * 4294967232#32).toInt ≤ w.toInt)
    (h2 : w.toInt < (BitVec.ofNat 32 f.val * 4294967232#32 + 576#32).toInt) :
    0 ≤ (w + BitVec.ofNat 32 (64 * f.val)).toInt ∧ (w + BitVec.ofNat 32 (64 * f.val)).toInt < 576 := by
  fin_cases f <;>
    simp only [BitVec.zero_mul, BitVec.one_mul, BitVec.toInt_zero, BitVec.zero_add, BitVec.add_zero, BitVec.reduceMul,
      BitVec.reduceToInt, BitVec.reduceAdd, BitVec.toInt_add, Int.reduceNeg, Nat.reduceMul, Nat.reducePow, mul_zero,
      mul_one] at h1 h2 ⊢
  all_goals first | omega | (rw [Int.bmod_eq_of_le (by omega) (by omega)]; omega)

end PreDecode

/-- The precondition, decoded: the node features' offset indices are rows of the table, and the two weight arrays the first
    region reads are real. -/
theorem pre_decode
    (a0 : IVec Cert.Pre_finite_inputs.S100000x9 32) (a1 : IVec Cert.Pre_finite_inputs.S2x600000 32) (a2 : IVec Cert.Pre_finite_inputs.S600000x3 32)
    (a3 : FVec Ideal Cert.Pre_finite_inputs.S576x128 .f32) (a4 : FVec Ideal Cert.Pre_finite_inputs.S48x1 .f32)
    (a5 : FVec Ideal Cert.Pre_finite_inputs.S128x128 .f32) (a6 : FVec Ideal Cert.Pre_finite_inputs.S128 .f32)
    (a7 : FVec Ideal Cert.Pre_finite_inputs.S128x128 .f32) (a8 : FVec Ideal Cert.Pre_finite_inputs.S128 .f32)
    (a9 : FVec Ideal Cert.Pre_finite_inputs.S128x1 .f32) (a10 : FVec Ideal Cert.Pre_finite_inputs.S1 .f32)
    (h : Cert.Pre_finite_inputs.fn (F := Ideal) a0 a1 a2 a3 a4 a5 a6 a7 a8 a9 a10 = (fun _ => 1#1)) :
    InRange a0 ∧ Finite a3 ∧ Finite a5 := by
  -- the predicate's one entry, as the ten-fold conjunction of its "all" reductions
  have h0 := congrFun h ix0
  dsimp only [Cert.Pre_finite_inputs.fn, Cert.Pre_finite_inputs.fn_part1, Cert.Pre_finite_inputs.fn_part2,
    Cert.Pre_finite_inputs.fn_part3] at h0
  -- split from the outside in: the tenth conjunct is the upper bound, the ninth the lower bound, the third and first are
  -- the finiteness of the second and first weight arrays
  obtain ⟨h0, c10⟩ := PreDecode.andi_at _ _ _ h0
  obtain ⟨h0, c9⟩ := PreDecode.andi_at _ _ _ h0
  obtain ⟨h0, -⟩ := PreDecode.andi_at _ _ _ h0
  obtain ⟨h0, -⟩ := PreDecode.andi_at _ _ _ h0
  obtain ⟨h0, -⟩ := PreDecode.andi_at _ _ _ h0
  obtain ⟨h0, -⟩ := PreDecode.andi_at _ _ _ h0
  obtain ⟨h0, -⟩ := PreDecode.andi_at _ _ _ h0
  obtain ⟨h0, c3⟩ := PreDecode.andi_at _ _ _ h0
  obtain ⟨c1, -⟩ := PreDecode.andi_at _ _ _ h0
  refine ⟨fun p f => ?_, PreDecode.finite_of_all a3 _ _ _ c1, PreDecode.finite_of_all a5 _ _ _ c3⟩
  -- at (p, f) the bounds' row reads -64 f and -64 f + 576
  exact PreDecode.word_range f (a0 (ix2 p f)) (PreDecode.sge_at a0 _ _ _ _ _ c9 p f) (PreDecode.slt_at a0 _ _ _ _ _ c10 p f)

end Cert.Bridge

end
-- ==== Proof.Assemble.lean ====
/-
  The value of the kernel program, and the claims.

  Through the three regions and the host operations between them the kernel's result array is
  `head (agg (layer (agg h₁)))` where h₁ is region 0's one-hot count times the table atom_table · W1; under the
  precondition (offset indices in range, both tables real) h₁ is the reference's (Σ_f atom_table[index_f]) · W1, and the
  reference's result is the same composition (`Cert.Bridge.ref_decomp`).
-/
import proofs.«414741_j70111046140326_3_alg».proof.Defs
import proofs.«414741_j70111046140326_3_alg».proof.Proof.Gen.Kernel.Frame
import proofs.«414741_j70111046140326_3_alg».proof.Proof.Gen.KernelIdeal.Frame
import proofs.«414741_j70111046140326_3_alg».proof.Proof.Gen.ReferenceIdeal.Run
import proofs.«414741_j70111046140326_3_alg».proof.Proof.Gen.ReferenceIdeal.Read
import proofs.«414741_j70111046140326_3_alg».proof.Proof.Gen.Pre_finite_inputs
import proofs.«414741_j70111046140326_3_alg».proof.Proof.Spec
import proofs.«414741_j70111046140326_3_alg».proof.Proof.KernelRun
import proofs.«414741_j70111046140326_3_alg».proof.Proof.Region0Value
import proofs.«414741_j70111046140326_3_alg».proof.Proof.Region1Value
import proofs.«414741_j70111046140326_3_alg».proof.Proof.Region2Value
import proofs.«414741_j70111046140326_3_alg».proof.Proof.KernelHost
import proofs.«414741_j70111046140326_3_alg».proof.Proof.AtomEnc
import proofs.«414741_j70111046140326_3_alg».proof.Proof.Layers
import proofs.«414741_j70111046140326_3_alg».proof.Proof.PreDecode

set_option maxRecDepth 16384

noncomputable section

namespace Cert.Proof.Value

open Idealize.ShloMosaic Idealize.ShloMosaic.TcCoe Idealize.SL.Sem Idealize.ShloMosaic.ValueIdx
open Cert.KernelIdeal Cert.KernelIdeal.Gen Cert.Bridge

variable (m : (ℓ : Loc nD τ sig) → Buf (Elt Ideal) ℓ) (ρ : Dev nD → PrngReg) (c : Dev nD)

/-- Region 0's output array is the reference's first linear map of the node features. -/
theorem h1_eq (hx : InRange (m ((c : Thread nD τ).loc main_arg0))) (hAT : Finite (m ((c : Thread nD τ).loc main_arg3)))
    (hW : Finite (m ((c : Thread nD τ).loc main_arg5))) :
    V2 m ρ c main_v6 = Cert.ReferenceIdeal.Read.val_main_v33 (F := Ideal) (m ((c : Thread nD τ).loc main_arg0))
      (m ((c : Thread nD τ).loc main_arg3)) (m ((c : Thread nD τ).loc main_arg5)) := by
  refine (W2_arr m ρ c 2).trans ?_
  rw [Cert.KernelIdeal.Region0.final0 (V1 m ρ) c, Cert.KernelIdeal.HostVals.v1_arg0]
  exact atomenc_eq _ _ _ _ (Cert.KernelIdeal.HostVals.v1_v5_apply m ρ c) hx hAT hW

/-- Region 1's output array is the dense layer of the first aggregation. -/
theorem h2_eq (hx : InRange (m ((c : Thread nD τ).loc main_arg0))) (hAT : Finite (m ((c : Thread nD τ).loc main_arg3)))
    (hW : Finite (m ((c : Thread nD τ).loc main_arg5))) :
    V8 m ρ c main_v68 = layer (F := Ideal) (agg (F := Ideal) (Cert.ReferenceIdeal.Read.val_main_v33 (F := Ideal) (m ((c : Thread nD τ).loc main_arg0))
      (m ((c : Thread nD τ).loc main_arg3)) (m ((c : Thread nD τ).loc main_arg5))) (m ((c : Thread nD τ).loc main_arg1))
      (m ((c : Thread nD τ).loc main_arg2)) (m ((c : Thread nD τ).loc main_arg4))) (m ((c : Thread nD τ).loc main_arg6))
      (m ((c : Thread nD τ).loc main_arg7)) := by
  refine (W8_arr m ρ c 3).trans ?_
  rw [Cert.KernelIdeal.Region1.final1 (V7 m ρ) c, Cert.KernelIdeal.HostVals.v7_v66, Cert.KernelIdeal.HostVals.v7_arg7,
    h1_eq m ρ c hx hAT hW]
  exact layer_eq _ _ _ _ (Cert.KernelIdeal.HostVals.v7_v67_apply m ρ c)

/-- The kernel's result array is the reference's result term of the same arguments. -/
theorem result_eq (hx : InRange (m ((c : Thread nD τ).loc main_arg0))) (hAT : Finite (m ((c : Thread nD τ).loc main_arg3)))
    (hW : Finite (m ((c : Thread nD τ).loc main_arg5))) :
    W10 m ρ c (Proc.devRef .tc main_v85) = Cert.ReferenceIdeal.Read.val_main_v139 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  refine (W10_arr m ρ c 4).trans ?_
  rw [Cert.KernelIdeal.Region2.final2 (V9 m ρ) c, Cert.KernelIdeal.HostVals.v9_v82, Cert.KernelIdeal.HostVals.v9_arg9,
    h2_eq m ρ c hx hAT hW, ref_decomp]
  exact head_eq _ _ _ _ _ _ (Cert.KernelIdeal.HostVals.v9_v83_apply m ρ c) (Cert.KernelIdeal.HostVals.v9_v84_apply m ρ c)

end Cert.Proof.Value

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at the reference's composed term of the (agreeing) arguments. -/
theorem algebraic : Cert.algebraic_KernelIdeal_ReferenceIdeal := by
  intro m ρ m' ρ' hpre hagree
  refine ⟨fun c => Cert.ReferenceIdeal.Read.val_main_v139 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.GenRun.run_result (F := Ideal) m ρ)
    obtain ⟨hx, hAT, hW⟩ := Cert.Bridge.pre_decode _ _ _ _ _ _ _ _ _ _ _ (hpre c)
    exact Cert.Proof.Value.result_eq m ρ c hx hAT hW
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v139_eq, e0, e1, e2, e3, e4, e5, e6, e7, e8, e9, e10]

end Cert.Proof.Claims

end
-- ==== Proof.lean ====
/-
  The certificate: the kernel (an atom-encoder one-hot matmul fused with the first GCN linear map, a bias-ReLU-matmul
  layer and a bias-head-logistic layer, with the edge aggregation between them on the host) against the jnp reference,
  equal over the extended reals when every offset atom index x[n, f] + 64 f is a row of the 576-row atom table and the
  float inputs are finite. The three frames are the generated ones (the reference's is its generated run with the result
  dropped); the ideal pass rewrote nothing; the value equation is `Cert.Proof.Claims.algebraic` (Proof/Assemble.lean).
-/
import proofs.«414741_j70111046140326_3_alg».proof.Defs
import proofs.«414741_j70111046140326_3_alg».proof.Proof.Gen.Kernel
import proofs.«414741_j70111046140326_3_alg».proof.Proof.Gen.KernelIdeal
import proofs.«414741_j70111046140326_3_alg».proof.Proof.Gen.ReferenceIdeal
import proofs.«414741_j70111046140326_3_alg».proof.Proof.Gen.Pre_finite_inputs
import proofs.«414741_j70111046140326_3_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
